-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000x50 : Shape := ⟨2, ![625000, 50]⟩
abbrev S625000 : Shape := ⟨1, ![625000]⟩
abbrev S2x625000 : Shape := ⟨2, ![2, 625000]⟩
abbrev S128x128 : Shape := ⟨2, ![128, 128]⟩
abbrev S50x128 : Shape := ⟨2, ![50, 128]⟩
abbrev S128 : Shape := ⟨1, ![128]⟩
abbrev S_ : Shape := ⟨0, ![]⟩
abbrev S1x625000 : Shape := ⟨2, ![1, 625000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000x50 : S_.BroadcastsInDim S625000x50 (![] : Fin 0 → Fin S625000x50.rank)
  reducesTo_S625000x50_S_d0_1 : S625000x50.ReducesTo [0, 1] S_
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  slices_S2x625000_S1x625000_0_0 : S2x625000.Slices ![0, 0] S1x625000
  shapeCasts_S1x625000_S625000 : S1x625000.ShapeCasts S625000

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg3 : IVec S2x625000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x625000 32 := (extractStridedSlice S1x625000 ![0, 0] · slices_S2x625000_S1x625000_0_0) main_arg3
  let main_v60 : IVec S625000 32 := shapeCast S625000 main_v59 shapeCasts_S1x625000_S625000
  let main_c_22 : IVec S_ 32 := constantI S_ 32 4294917296#32
  let main_v61 : IVec S625000 32 := broadcastInDim S625000 ![] bcast_S_S625000 main_c_22
  let main_v62 : IVec S625000 1 := cmpi .sge main_v60 main_v61
  let main_v63 : IVec S1x625000 32 := (extractStridedSlice S1x625000 ![0, 0] · slices_S2x625000_S1x625000_0_0) main_arg3
  let main_v64 : IVec S625000 32 := shapeCast S625000 main_v63 shapeCasts_S1x625000_S625000
  let main_c_23 : IVec S_ 32 := constantI S_ 32 50000#32
  let main_v65 : IVec S625000 32 := broadcastInDim S625000 ![] bcast_S_S625000 main_c_23
  let main_v66 : IVec S625000 1 := cmpi .slt main_v64 main_v65
  let main_v67 : IVec S625000 1 := andi main_v62 main_v66
  let main_c_24 : IVec S_ 1 := constantI S_ 1 1#1
  let main_v68 : IVec S_ 1 := (fun x v => Host.reduce IntOp.andi x v reducesTo_S625000_S_d0 h_S_) main_v67 main_c_24
  fn_part4 (F := F) main_v58 main_v68

def fn_part2 {F : FTy → Type} [FloatOps F] (main_arg3 : IVec S2x625000 32) (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg3 main_arg12 main_v48 main_v49 main_v50

def fn_part1 {F : FTy → Type} [FloatOps F] (main_arg3 : IVec S2x625000 32) (main_arg5 : FVec F S50x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S50x128 .f32 := Host.absf main_arg5
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg8 main_arg9 main_arg10 main_arg11 main_arg12 main_v33

def fn {F : FTy → Type} [FloatOps F] (main_arg0 : FVec F S50000x128 .f32) (main_arg1 : FVec F S625000x50 .f32) (main_arg2 : FVec F S625000 .f32) (main_arg3 : IVec S2x625000 32) (main_arg4 : FVec F S128x128 .f32) (main_arg5 : FVec F S50x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000x50 .f32 := Host.absf main_arg1
  let main_cst_0 : FVec F S_ .f32 := constant S_ .f32 0x7F800000#32
  let main_v5 : FVec F S625000x50 .f32 := broadcastInDim S625000x50 ![] bcast_S_S625000x50 main_cst_0
  let main_v6 : IVec S625000x50 1 := cmpf .olt main_v4 main_v5
  let main_c_1 : IVec S_ 1 := constantI S_ 1 1#1
  let main_v7 : IVec S_ 1 := (fun x v => Host.reduce IntOp.andi x v reducesTo_S625000x50_S_d0_1 h_S_) main_v6 main_c_1
  let main_v8 : IVec S_ 1 := andi main_v3 main_v7
  let main_v9 : FVec F S625000 .f32 := Host.absf main_arg2
  let main_cst_2 : FVec F S_ .f32 := constant S_ .f32 0x7F800000#32
  let main_v10 : FVec F S625000 .f32 := broadcastInDim S625000 ![] bcast_S_S625000 main_cst_2
  let main_v11 : IVec S625000 1 := cmpf .olt main_v9 main_v10
  let main_c_3 : IVec S_ 1 := constantI S_ 1 1#1
  let main_v12 : IVec S_ 1 := (fun x v => Host.reduce IntOp.andi x v reducesTo_S625000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg5 main_arg6 main_arg7 main_arg8 main_arg9 main_arg10 main_arg11 main_arg12 main_v13 main_v16
-- ==== Kernel.lean ====
abbrev S50000x128 : Shape := ⟨2, ![50000, 128]⟩
abbrev S625000x50 : Shape := ⟨2, ![625000, 50]⟩
abbrev S625000 : Shape := ⟨1, ![625000]⟩
abbrev S2x625000 : Shape := ⟨2, ![2, 625000]⟩
abbrev S128x128 : Shape := ⟨2, ![128, 128]⟩
abbrev S50x128 : Shape := ⟨2, ![50, 128]⟩
abbrev S128 : Shape := ⟨1, ![128]⟩
abbrev S1x625000 : Shape := ⟨2, ![1, 625000]⟩
abbrev S5000x128 : Shape := ⟨2, ![5000, 128]⟩
abbrev S_ : Shape := ⟨0, ![]⟩
abbrev S625000x1 : Shape := ⟨2, ![625000, 1]⟩
abbrev S1 : Shape := ⟨1, ![1]⟩
abbrev S1x1 : Shape := ⟨2, ![1, 1]⟩
abbrev S625000x128 : Shape := ⟨2, ![625000, 128]⟩
abbrev S1x128 : Shape := ⟨2, ![1, 128]⟩
abbrev S5000x50 : Shape := ⟨2, ![5000, 50]⟩
abbrev S5000x1 : Shape := ⟨2, ![5000, 1]⟩

abbrev nBuf : Space → Nat
  | .hbm => 52
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S625000x50, .f32⟩
  | .hbm, ⟨2, _⟩ => ⟨S625000, .f32⟩
  | .hbm, ⟨3, _⟩ => ⟨S2x625000, .i32⟩
  | .hbm, ⟨4, _⟩ => ⟨S128x128, .f32⟩
  | .hbm, ⟨5, _⟩ => ⟨S50x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x625000, .i32⟩
  | .hbm, ⟨14, _⟩ => ⟨S625000, .i32⟩
  | .hbm, ⟨15, _⟩ => ⟨S1x625000, .i32⟩
  | .hbm, ⟨16, _⟩ => ⟨S625000, .i32⟩
  | .hbm, ⟨17, _⟩ => ⟨S50000x128, .f32⟩
  | .hbm, ⟨18, _⟩ => ⟨S_, .i32⟩
  | .hbm, ⟨19, _⟩ => ⟨S625000, .i32⟩
  | .hbm, ⟨20, _⟩ => ⟨S625000, .i1⟩
  | .hbm, ⟨21, _⟩ => ⟨S_, .i32⟩
  | .hbm, ⟨22, _⟩ => ⟨S625000, .i32⟩
  | .hbm, ⟨23, _⟩ => ⟨S625000, .i32⟩
  | .hbm, ⟨24, _⟩ => ⟨S625000, .i32⟩
  | .hbm, ⟨25, _⟩ => ⟨S625000x1, .i32⟩
  | .hbm, ⟨26, _⟩ => ⟨S1, .i32⟩
  | .hbm, ⟨27, _⟩ => ⟨S_, .i32⟩
  | .hbm, ⟨28, _⟩ => ⟨S625000x1, .i32⟩
  | .hbm, ⟨29, _⟩ => ⟨S625000x1, .i1⟩
  | .hbm, ⟨30, _⟩ => ⟨S1x1, .i32⟩
  | .hbm, ⟨31, _⟩ => ⟨S625000x1, .i32⟩
  | .hbm, ⟨32, _⟩ => ⟨S625000x1, .i1⟩
  | .hbm, ⟨33, _⟩ => ⟨S625000x1, .i1⟩
  | .hbm, ⟨34, _⟩ => ⟨S_, .i1⟩
  | .hbm, ⟨35, _⟩ => ⟨S625000, .i1⟩
  | .hbm, ⟨36, _⟩ => ⟨S625000x128, .f32⟩
  | .hbm, ⟨37, _⟩ => ⟨S625000x128, .i1⟩
  | .hbm, ⟨38, _⟩ => ⟨S_, .f32⟩
  | .hbm, ⟨39, _⟩ => ⟨S625000x128, .f32⟩
  | .hbm, ⟨40, _⟩ => ⟨S625000x128, .f32⟩
  | .hbm, ⟨41, _⟩ => ⟨S625000x1, .f32⟩
  | .hbm, ⟨42, _⟩ => ⟨S1x128, .f32⟩
  | .hbm, ⟨43, _⟩ => ⟨S1x128, .f32⟩
  | .hbm, ⟨44, _⟩ => ⟨S625000x128, .f32⟩
  | .hbm, ⟨45, _⟩ => ⟨S_, .f32⟩
  | .hbm, ⟨46, _⟩ => ⟨S50000x128, .f32⟩
  | .hbm, ⟨47, _⟩ => ⟨S625000x1, .i32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x50, .f32⟩
  | .local _ .vmem, ⟨6, _⟩ => ⟨S5000x50, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S50x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  reducesTo_S625000x1_S625000_d1 : S625000x1.ReducesTo [1] S625000
  h_S_ : 0 < S_.numel
  bcast_S625000_S625000x128_0 : S625000.BroadcastsInDim S625000x128 (![0] : Fin 1 → Fin S625000x128.rank)
  bcast_S_S625000x128 : S_.BroadcastsInDim S625000x128 (![] : Fin 0 → Fin S625000x128.rank)
  shapeCasts_S625000_S625000x1 : S625000.ShapeCasts S625000x1
  shapeCasts_S128_S1x128 : S128.ShapeCasts S1x128
  inb_S5000x50_S5000x50_0_0 : ∀ a, (![0, 0] : Fin 2 → Nat) a + S5000x50.size a ≤ S5000x50.size a
  h_S5000x50 : 0 < S5000x50.numel
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  natLt_1_32 : 1 < 32
  broadcasts_S5000x1_S5000x128 : S5000x1.Broadcasts S5000x128
  shapeCasts_S5000x128_S5000x128 : S5000x128.ShapeCasts S5000x128
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S625000x1_S625000x128_1_0_n_n_0_1_1128_wf : GatherDims.WF S50000x128 S625000x1 S625000x128 [1] [0] [] [0] [] 1 ![1, 128]
  dot_S5000x50_S50x128_S5000x128_1_0_0_1_n_n_wf : DotDims.WF S5000x50 S50x128 S5000x128 [1] [0] [0] [1] [] []
  scatter_S50000x128_S625000x1_S625000x128_1_0_0_1_wf : ScatterDims.WF S50000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x50.size a ≤ S625000x50.size a
  hwx1_0 : ∀ i : grid1.Coords, EltTy.bits .f32 = 32 ∨ (Rect.block (s := S625000x50) S5000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S625000x1.size a
  hwx1_1 : ∀ i : grid1.Coords, EltTy.bits .f32 = 32 ∨ (Rect.block (s := S625000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S625000x128.size a
  hwx1_2 : ∀ i : grid1.Coords, EltTy.bits .f32 = 32 ∨ (Rect.block (s := S625000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S625000x128.size a
  hwx1_7 : ∀ i : grid1.Coords, EltTy.bits .f32 = 32 ∨ (Rect.block (s := S625000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v15) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S625000x50 : Shape := ⟨2, ![625000, 50]⟩
abbrev S625000 : Shape := ⟨1, ![625000]⟩
abbrev S2x625000 : Shape := ⟨2, ![2, 625000]⟩
abbrev S128x128 : Shape := ⟨2, ![128, 128]⟩
abbrev S50x128 : Shape := ⟨2, ![50, 128]⟩
abbrev S128 : Shape := ⟨1, ![128]⟩
abbrev S1x625000 : Shape := ⟨2, ![1, 625000]⟩
abbrev S_ : Shape := ⟨0, ![]⟩
abbrev S625000x128 : Shape := ⟨2, ![625000, 128]⟩
abbrev S1x128 : Shape := ⟨2, ![1, 128]⟩
abbrev S625000x1 : Shape := ⟨2, ![625000, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000x50, .f32⟩
  | .hbm, ⟨2, _⟩ => ⟨S625000, .f32⟩
  | .hbm, ⟨3, _⟩ => ⟨S2x625000, .i32⟩
  | .hbm, ⟨4, _⟩ => ⟨S128x128, .f32⟩
  | .hbm, ⟨5, _⟩ => ⟨S50x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x625000, .i32⟩
  | .hbm, ⟨14, _⟩ => ⟨S625000, .i32⟩
  | .hbm, ⟨15, _⟩ => ⟨S1x625000, .i32⟩
  | .hbm, ⟨16, _⟩ => ⟨S625000, .i32⟩
  | .hbm, ⟨17, _⟩ => ⟨S50000x128, .f32⟩
  | .hbm, ⟨18, _⟩ => ⟨S_, .f32⟩
  | .hbm, ⟨19, _⟩ => ⟨S625000, .f32⟩
  | .hbm, ⟨20, _⟩ => ⟨S625000, .f32⟩
  | .hbm, ⟨21, _⟩ => ⟨S625000, .f32⟩
  | .hbm, ⟨22, _⟩ => ⟨S_, .f32⟩
  | .hbm, ⟨23, _⟩ => ⟨S625000, .f32⟩
  | .hbm, ⟨24, _⟩ => ⟨S625000, .f32⟩
  | .hbm, ⟨25, _⟩ => ⟨S_, .f32⟩
  | .hbm, ⟨26, _⟩ => ⟨S625000, .f32⟩
  | .hbm, ⟨27, _⟩ => ⟨S625000, .f32⟩
  | .hbm, ⟨28, _⟩ => ⟨S_, .f32⟩
  | .hbm, ⟨29, _⟩ => ⟨S625000, .f32⟩
  | .hbm, ⟨30, _⟩ => ⟨S625000, .i1⟩
  | .hbm, ⟨31, _⟩ => ⟨S625000, .f32⟩
  | .hbm, ⟨32, _⟩ => ⟨S625000, .f32⟩
  | .hbm, ⟨33, _⟩ => ⟨S625000x128, .f32⟩
  | .hbm, ⟨34, _⟩ => ⟨S1x128, .f32⟩
  | .hbm, ⟨35, _⟩ => ⟨S625000x128, .f32⟩
  | .hbm, ⟨36, _⟩ => ⟨S625000x128, .f32⟩
  | .hbm, ⟨37, _⟩ => ⟨S_, .f32⟩
  | .hbm, ⟨38, _⟩ => ⟨S625000x128, .f32⟩
  | .hbm, ⟨39, _⟩ => ⟨S625000x128, .f32⟩
  | .hbm, ⟨40, _⟩ => ⟨S625000x128, .f32⟩
  | .hbm, ⟨41, _⟩ => ⟨S625000x128, .f32⟩
  | .hbm, ⟨42, _⟩ => ⟨S625000x128, .i1⟩
  | .hbm, ⟨43, _⟩ => ⟨S625000x128, .f32⟩
  | .hbm, ⟨44, _⟩ => ⟨S625000x128, .f32⟩
  | .hbm, ⟨45, _⟩ => ⟨S625000x128, .f32⟩
  | .hbm, ⟨46, _⟩ => ⟨S625000x128, .f32⟩
  | .hbm, ⟨47, _⟩ => ⟨S625000x128, .f32⟩
  | .hbm, ⟨48, _⟩ => ⟨S625000x128, .f32⟩
  | .hbm, ⟨49, _⟩ => ⟨S625000x128, .f32⟩
  | .hbm, ⟨50, _⟩ => ⟨S625000x128, .f32⟩
  | .hbm, ⟨51, _⟩ => ⟨S_, .f32⟩
  | .hbm, ⟨52, _⟩ => ⟨S625000x128, .f32⟩
  | .hbm, ⟨53, _⟩ => ⟨S625000x128, .f32⟩
  | .hbm, ⟨54, _⟩ => ⟨S625000x128, .f32⟩
  | .hbm, ⟨55, _⟩ => ⟨S1x128, .f32⟩
  | .hbm, ⟨56, _⟩ => ⟨S625000x128, .f32⟩
  | .hbm, ⟨57, _⟩ => ⟨S625000x128, .f32⟩
  | .hbm, ⟨58, _⟩ => ⟨S625000x1, .f32⟩
  | .hbm, ⟨59, _⟩ => ⟨S625000x128, .f32⟩
  | .hbm, ⟨60, _⟩ => ⟨S625000x128, .f32⟩
  | .hbm, ⟨61, _⟩ => ⟨S_, .i32⟩
  | .hbm, ⟨62, _⟩ => ⟨S625000, .i32⟩
  | .hbm, ⟨63, _⟩ => ⟨S625000, .i1⟩
  | .hbm, ⟨64, _⟩ => ⟨S_, .i32⟩
  | .hbm, ⟨65, _⟩ => ⟨S625000, .i32⟩
  | .hbm, ⟨66, _⟩ => ⟨S625000, .i32⟩
  | .hbm, ⟨67, _⟩ => ⟨S625000, .i32⟩
  | .hbm, ⟨68, _⟩ => ⟨S625000x1, .i32⟩
  | .hbm, ⟨69, _⟩ => ⟨S625000x128, .f32⟩
  | .hbm, ⟨70, _⟩ => ⟨S625000x128, .f32⟩
  | .hbm, ⟨71, _⟩ => ⟨S_, .f32⟩
  | .hbm, ⟨72, _⟩ => ⟨S50000x128, .f32⟩
  | .hbm, ⟨73, _⟩ => ⟨S625000x1, .i32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .i1⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c : Ref sig .tc := ⟨.hbm, 61, rfl⟩
abbrev main_v30 : Ref sig .tc := ⟨.hbm, 62, rfl⟩
abbrev main_v31 : Ref sig .tc := ⟨.hbm, 63, rfl⟩
abbrev main_c_4 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_5 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v45 : Ref sig .tc := ⟨.hbm, 92, rfl⟩
abbrev main_cst_6 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S625000x50_S50x128_S625000x128_1_0_0_1_n_n_wf : DotDims.WF S625000x50 S50x128 S625000x128 [1] [0] [0] [1] [] []
  dot_S625000x128_S128x128_S625000x128_1_0_0_1_n_n_wf : DotDims.WF S625000x128 S128x128 S625000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S625000x50_S50x128_S625000x128_1_0_0_1_n_n : DotDims S625000x50 S50x128 S625000x128 where
  lhsContracting := [1]
  rhsContracting := [0]
  lhsNonContracting := [0]
  rhsNonContracting := [1]
  lhsBatch := []
  rhsBatch := []
  wf := dot_S625000x50_S50x128_S625000x128_1_0_0_1_n_n_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

class Facts : Prop extends Facts₀ where

variable [Facts]
-- ==== Proof.Spec.lean ====
/-
  The message-passing update, entry by entry, over the extended reals.

  A node row x_n (128 features) is projected, h_n = x_n · W; an edge e = (i → j) carries a filter
  F_e = ssp (g_e · W₁ + b₁) · W₂ + b₂ of its 50 radial features g_e, damped by the cosine cutoff
  c_e = ½ (cos (2π d_e) + 1) · [d_e < ½] of its length d_e; the message is m_e = h_i ⊙ (F_e · c_e);
  node j sums the messages of its incoming edges into a_j, and the new row is
  x_j + (ssp (a_j · V₁ + β₁) · V₂ + β₂).  Here ssp x = max x 0 + log (1 + e^{-|x - 0|}) - ln 2 (shifted softplus,
  with the float constant the programs carry for ln 2).

  Everything below is stated at explicit coordinates (a row, a column), so that both programs' values can be read
  against it one entry at a time; no product is distributed over a sum, so no finiteness is needed.
-/
import Idealize.ShloMosaic.PureOps.Ideal
import Idealize.ShloMosaic.Lib.ValueIdx

noncomputable section

namespace Cert.Schnet

open Idealize.ShloMosaic Idealize.ShloMosaic.ValueIdx

/-- The node table: 50000 rows of 128 features. -/
abbrev Nodes : Shape := ⟨2, ![50000, 128]⟩
/-- The edges' radial features: 625000 rows of 50. -/
abbrev EdgeFeat : Shape := ⟨2, ![625000, 50]⟩
/-- One 128-feature row per edge. -/
abbrev Edges : Shape := ⟨2, ![625000, 128]⟩
/-- One number per edge. -/
abbrev EdgeVec : Shape := ⟨1, ![625000]⟩
/-- A 128 × 128 weight matrix. -/
abbrev Sq : Shape := ⟨2, ![128, 128]⟩
/-- The 50 × 128 weight matrix of the filter's first layer. -/
abbrev In50 : Shape := ⟨2, ![50, 128]⟩
/-- A bias: 128 numbers. -/
abbrev Vec128 : Shape := ⟨1, ![128]⟩

/-- The float zero, one, one half, 2π and ln 2 as the programs spell them. -/
abbrev c0 : EReal := Ideal.ofBits .f32 0x00000000#32
abbrev c1 : EReal := Ideal.ofBits .f32 0x3F800000#32
abbrev cHalf : EReal := Ideal.ofBits .f32 0x3F000000#32
abbrev c2pi : EReal := Ideal.ofBits .f32 0x40C90FDB#32
abbrev cLn2 : EReal := Ideal.ofBits .f32 0x3F317218#32

/-- Shifted softplus of one extended real: max x 0 + log (1 + exp (-|x - 0|)) - ln 2. -/
def ssp (x : EReal) : EReal :=
  (max x c0 + Ideal.log1p (Ideal.exp (-(max (x - c0) (-(x - c0)))))) - cLn2

/-- Row `n` of `X` against column `f` of `W`. -/
def projAt (X : Nodes.Idx → EReal) (W : Sq.Idx → EReal) (n : Fin 50000) (f : Fin 128) : EReal :=
  ∑ k : Fin 128, X (ix2 n k) * W (ix2 k f)

/-- The node projection h = X · W. -/
def proj (X : Nodes.Idx → EReal) (W : Sq.Idx → EReal) : Nodes.Idx → EReal :=
  fun i => projAt X W (i 0) (i 1)

/-- Hidden unit `k` of edge `e`'s filter network: ssp (g_e · W₁ + b₁). -/
def edgeHidAt (G : EdgeFeat.Idx → EReal) (W1 : In50.Idx → EReal) (b1 : Vec128.Idx → EReal)
    (e : Fin 625000) (k : Fin 128) : EReal :=
  ssp ((∑ g : Fin 50, G (ix2 e g) * W1 (ix2 g k)) + b1 (ix1 k))

/-- Feature `f` of edge `e`'s filter: the hidden row against column `f` of W₂, plus b₂. -/
def filtAt (G : EdgeFeat.Idx → EReal) (W1 : In50.Idx → EReal) (b1 : Vec128.Idx → EReal) (W2 : Sq.Idx → EReal)
    (b2 : Vec128.Idx → EReal) (e : Fin 625000) (f : Fin 128) : EReal :=
  (∑ k : Fin 128, edgeHidAt G W1 b1 e k * W2 (ix2 k f)) + b2 (ix1 f)

/-- The cosine cutoff of edge `e`: ½ (cos (2π d) + 1), times 1 when d < ½ and 0 otherwise. -/
def cutAt (d : EdgeVec.Idx → EReal) (e : Fin 625000) : EReal :=
  (cHalf * (Ideal.cos (d (ix1 e) * c2pi) + c1)) * (((Ideal.cmp .olt (d (ix1 e)) cHalf).toNat : ℝ) : EReal)

/-- Feature `f` of edge `e`'s message: the gathered source row times the damped filter. -/
def edgeAt (hg : Edges.Idx → EReal) (G : EdgeFeat.Idx → EReal) (d : EdgeVec.Idx → EReal) (W1 : In50.Idx → EReal)
    (b1 : Vec128.Idx → EReal) (W2 : Sq.Idx → EReal) (b2 : Vec128.Idx → EReal) (e : Fin 625000) (f : Fin 128) : EReal :=
  hg (ix2 e f) * (filtAt G W1 b1 W2 b2 e f * cutAt d e)

/-- The messages, one row per edge. -/
def edge (hg : Edges.Idx → EReal) (G : EdgeFeat.Idx → EReal) (d : EdgeVec.Idx → EReal) (W1 : In50.Idx → EReal)
    (b1 : Vec128.Idx → EReal) (W2 : Sq.Idx → EReal) (b2 : Vec128.Idx → EReal) : Edges.Idx → EReal :=
  fun i => edgeAt hg G d W1 b1 W2 b2 (i 0) (i 1)

/-- Hidden unit `k` of node `n`'s update network: ssp (a_n · V₁ + β₁). -/
def nodeHidAt (A : Nodes.Idx → EReal) (V1 : Sq.Idx → EReal) (β1 : Vec128.Idx → EReal) (n : Fin 50000) (k : Fin 128) : EReal :=
  ssp ((∑ j : Fin 128, A (ix2 n j) * V1 (ix2 j k)) + β1 (ix1 k))

/-- Feature `f` of node `n`'s new row: the old row plus the update network's output. -/
def nodeAt (X : Nodes.Idx → EReal) (A : Nodes.Idx → EReal) (V1 : Sq.Idx → EReal) (β1 : Vec128.Idx → EReal)
    (V2 : Sq.Idx → EReal) (β2 : Vec128.Idx → EReal) (n : Fin 50000) (f : Fin 128) : EReal :=
  X (ix2 n f) + ((∑ k : Fin 128, nodeHidAt A V1 β1 n k * V2 (ix2 k f)) + β2 (ix1 f))

/-- The new node table. -/
def node (X : Nodes.Idx → EReal) (A : Nodes.Idx → EReal) (V1 : Sq.Idx → EReal) (β1 : Vec128.Idx → EReal)
    (V2 : Sq.Idx → EReal) (β2 : Vec128.Idx → EReal) : Nodes.Idx → EReal :=
  fun i => nodeAt X A V1 β1 V2 β2 (i 0) (i 1)

theorem proj_ix2 (X : Nodes.Idx → EReal) (W : Sq.Idx → EReal) (n : Fin 50000) (f : Fin 128) :
    proj X W (ix2 n f) = projAt X W n f := rfl

theorem edge_ix2 (hg : Edges.Idx → EReal) (G : EdgeFeat.Idx → EReal) (d : EdgeVec.Idx → EReal) (W1 : In50.Idx → EReal)
    (b1 : Vec128.Idx → EReal) (W2 : Sq.Idx → EReal) (b2 : Vec128.Idx → EReal) (e : Fin 625000) (f : Fin 128) :
    edge hg G d W1 b1 W2 b2 (ix2 e f) = edgeAt hg G d W1 b1 W2 b2 e f := rfl

theorem node_ix2 (X : Nodes.Idx → EReal) (A : Nodes.Idx → EReal) (V1 : Sq.Idx → EReal) (β1 : Vec128.Idx → EReal)
    (V2 : Sq.Idx → EReal) (β2 : Vec128.Idx → EReal) (n : Fin 50000) (f : Fin 128) :
    node X A V1 β1 V2 β2 (ix2 n f) = nodeAt X A V1 β1 V2 β2 n f := rfl

/-- A one-bit word widened to 32 bits reads the same signed as the bit reads unsigned: 0 or 1. -/
theorem bit_toInt_eq_toNat (b : BitVec 1) : (((b.setWidth 32).toInt : ℝ) : EReal) = ((b.toNat : ℝ) : EReal) := by
  have h : (b.setWidth 32).toInt = (b.toNat : Int) := by revert b; decide
  rw [h]; rfl

/-- A number is never different from itself: the programs' not-a-number test never fires here. -/
theorem cmp_one_self (x : EReal) : Ideal.cmp .one x x = 0#1 := by simp [Ideal.cmp]
theorem cmp_une_self (x : EReal) : Ideal.cmp .une x x = 0#1 := by simp [Ideal.cmp]

end Cert.Schnet

end
-- ==== Proof.KernelOps.lean ====
/-
  The kernels' vector operations read at one entry of a 5000-row block, over the extended reals: the two block
  products (a block against a 128-column weight is, at (p, q), the sum over k of block (p, k) · weight (k, q)),
  a bias row laid under every row, a per-row factor laid along every column, and the not-a-number guard of the
  softplus, which never fires.
-/
import proofs.«412649_j3874060501586_1_alg».proof.Proof.Gen.KernelIdeal
import proofs.«412649_j3874060501586_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Gen Idealize.ShloMosaic Idealize.ShloMosaic.ValueIdx

/-! ### The product of a [5000, 128] block with a [128, 128] weight, read at an entry -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product into a zero accumulator: row p of the block against column q of the weight. -/
theorem matmul128_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The product of a [5000, 50] block with a [50, 128] weight, read at an entry -/

theorem lhs50_0 (i : S5000x128.Idx) (q : dot_S5000x50_S50x128_S5000x128_1_0_0_1_n_n.contr.Idx) :
    (dot_S5000x50_S50x128_S5000x128_1_0_0_1_n_n.lhsIdx i q 0).val = (i 0).val := by
  unfold DotDims.lhsIdx
  rw [dif_neg (show ¬(0 : Fin S5000x50.rank) ∈ dot_S5000x50_S50x128_S5000x128_1_0_0_1_n_n.lhsBatch by decide), dif_pos (show (0 : Fin S5000x50.rank) ∈ dot_S5000x50_S50x128_S5000x128_1_0_0_1_n_n.lhsNonContracting by decide)]
  rfl
theorem lhs50_1 (i : S5000x128.Idx) (q : dot_S5000x50_S50x128_S5000x128_1_0_0_1_n_n.contr.Idx) :
    (dot_S5000x50_S50x128_S5000x128_1_0_0_1_n_n.lhsIdx i q 1).val = (q ⟨0, by decide⟩).val :=
  dot_S5000x50_S50x128_S5000x128_1_0_0_1_n_n.lhsIdx_val_of_single rfl i q
theorem rhs50_0 (i : S5000x128.Idx) (q : dot_S5000x50_S50x128_S5000x128_1_0_0_1_n_n.contr.Idx) :
    (dot_S5000x50_S50x128_S5000x128_1_0_0_1_n_n.rhsIdx i q 0).val = (q ⟨0, by decide⟩).val :=
  dot_S5000x50_S50x128_S5000x128_1_0_0_1_n_n.rhsIdx_val_of_single rfl i q
theorem rhs50_1 (i : S5000x128.Idx) (q : dot_S5000x50_S50x128_S5000x128_1_0_0_1_n_n.contr.Idx) :
    (dot_S5000x50_S50x128_S5000x128_1_0_0_1_n_n.rhsIdx i q 1).val = (i 1).val := by
  unfold DotDims.rhsIdx
  rw [dif_neg (show ¬(1 : Fin S50x128.rank) ∈ dot_S5000x50_S50x128_S5000x128_1_0_0_1_n_n.rhsBatch by decide), dif_pos (show (1 : Fin S50x128.rank) ∈ dot_S5000x50_S50x128_S5000x128_1_0_0_1_n_n.rhsNonContracting by decide)]
  rfl

/-- Entry (p, q) of the block product into a zero accumulator: row p of the block against column q of the weight. -/
theorem matmul50_apply {φ₁ φ₂ : FTy} (x : FVec Ideal S5000x50 φ₁) (w : FVec Ideal S50x128 φ₂) (p : Fin 5000) (q : Fin 128) :
    matmul dot_S5000x50_S50x128_S5000x128_1_0_0_1_n_n none x w (constant S5000x128 .f32 0x00000000#32) (ix2 p q)
      = ∑ k : Fin 50, x (ix2 p k) * w (ix2 k q) := by
  simp only [matmul]
  rw [Ideal.matmul_constant_zero_apply, ← Equiv.sum_comp (contrEquiv1 dot_S5000x50_S50x128_S5000x128_1_0_0_1_n_n 50 rfl rfl).symm]
  refine Finset.sum_congr rfl fun k _ => ?_
  have hk := contrEquiv1_symm_val dot_S5000x50_S50x128_S5000x128_1_0_0_1_n_n 50 rfl rfl k
  have el : dot_S5000x50_S50x128_S5000x128_1_0_0_1_n_n.lhsIdx (ix2 p q) ((contrEquiv1 dot_S5000x50_S50x128_S5000x128_1_0_0_1_n_n 50 rfl rfl).symm k) = ix2 p k := funext fun a => Fin.ext (by
    match a with
    | ⟨0, _⟩ => exact lhs50_0 _ _
    | ⟨1, _⟩ => exact (lhs50_1 _ _).trans hk)
  have er : dot_S5000x50_S50x128_S5000x128_1_0_0_1_n_n.rhsIdx (ix2 p q) ((contrEquiv1 dot_S5000x50_S50x128_S5000x128_1_0_0_1_n_n 50 rfl rfl).symm k) = ix2 k q := funext fun a => Fin.ext (by
    match a with
    | ⟨0, _⟩ => exact (rhs50_0 _ _).trans hk
    | ⟨1, _⟩ => exact rhs50_1 _ _)
  rw [el, er]

/-! ### Layout -/

/-- A [1, 128] bias row, cast to itself and laid under all 5000 rows, reads at (p, q) the row's entry q. -/
theorem bias_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => by
    match a with
    | ⟨0, _⟩ => rfl
    | ⟨1, _⟩ => rfl)

/-- A [5000, 1] column laid along all 128 columns reads at (p, q) the column's entry p. -/
theorem col_apply (v : FVec Ideal S5000x1 .f32) (p : Fin 5000) (q : Fin 128) :
    broadcastTo S5000x128 v broadcasts_S5000x1_S5000x128 (ix2 p q) = v (ix2 p 0) := by
  exact broadcastTo_apply v broadcasts_S5000x1_S5000x128 (ix2 p q) (ix2 p 0) (fun a => by
    match a with
    | ⟨0, _⟩ => rfl
    | ⟨1, _⟩ => rfl)

/-! ### The shifted softplus as the kernels spell it -/

/-- The float zero minus a number is its negation. -/
theorem c0_sub (a : EReal) : Schnet.c0 - a = -a := by
  rw [show Schnet.c0 = 0 from Ideal.ofBits_zero_f32, zero_sub]

/-- The kernels' softplus chain on a block, then the shift by ln 2: max v 0 + log1p (exp (0 - |v - 0|)) - ln 2, with the
    guard that picks v + 0 where v - 0 is not a number. -/
def sspBlock (v : FVec Ideal S5000x128 .f32) : FVec Ideal S5000x128 .f32 :=
  subf (select (cmpf .one (subf v (broadcast S5000x128 (Scalar.ofBits (F := Ideal) .f32 0x00000000#32))) (subf v (broadcast S5000x128 (Scalar.ofBits (F := Ideal) .f32 0x00000000#32))))
        (addf v (broadcast S5000x128 (Scalar.ofBits (F := Ideal) .f32 0x00000000#32)))
        (addf (maximumf v (broadcast S5000x128 (Scalar.ofBits (F := Ideal) .f32 0x00000000#32)))
          (log1p (exp (subf (broadcast S5000x128 (Scalar.ofBits (F := Ideal) .f32 0x00000000#32)) (absf (subf v (broadcast S5000x128 (Scalar.ofBits (F := Ideal) .f32 0x00000000#32)))))))))
      (broadcast S5000x128 (Scalar.ofBits (F := Ideal) .f32 0x3F317218#32))

/-- Read at an entry it is the shifted softplus of that entry: the test for a not-a-number never fires, and
    0 - |x - 0| is -|x - 0|. -/
theorem sspBlock_apply (v : FVec Ideal S5000x128 .f32) (i : S5000x128.Idx) : sspBlock v i = Schnet.ssp (v i) := by
  show Scalar.select (Ideal.cmp .one (v i - Schnet.c0) (v i - Schnet.c0)) (v i + Schnet.c0)
      (max (v i) Schnet.c0 + Ideal.log1p (Ideal.exp (Schnet.c0 - max (v i - Schnet.c0) (-(v i - Schnet.c0))))) - Schnet.cLn2 = _
  rw [Schnet.cmp_one_self, select_zero, c0_sub]
  rfl

/-- A hidden layer at an entry: the softplus chain over a product block plus a bias row. -/
theorem hidden_apply (u : FVec Ideal S5000x128 .f32) (b : FVec Ideal S1x128 .f32) (p : Fin 5000) (k : Fin 128) :
    sspBlock (addf u (broadcastTo S5000x128 (shapeCast S1x128 b shapeCasts_S1x128_S1x128) broadcasts_S1x128_S5000x128)) (ix2 p k)
      = Schnet.ssp (u (ix2 p k) + b (ix2 0 k)) :=
  (sspBlock_apply _ _).trans (congrArg Schnet.ssp (congrArg (u (ix2 p k) + ·) (bias_apply b p k)))

/-! ### The kernels' layouts of a vector -/

/-- A [1, 128] row read as its 128 entries. -/
abbrev rowVec (b : S1x128.Idx → EReal) : Schnet.Vec128.Idx → EReal := fun i => b (ix2 (n0 := 1) (n1 := 128) 0 (i 0))
/-- A [625000, 1] column read as its 625000 entries. -/
abbrev colVec (d : S625000x1.Idx → EReal) : Schnet.EdgeVec.Idx → EReal := fun i => d (ix2 (n0 := 625000) (n1 := 1) (i 0) 0)

end Cert.KernelIdeal.Ops

end
-- ==== Proof.Region0.lean ====
/-
  The node projection: what the first pallas_call leaves in its output array.  Point t of its grid of 10 multiplies rows
  5000 t … 5000 t + 4999 of the node table by the whole 128 × 128 weight, so the array ends as h = X · W, entry by entry.
-/
import proofs.«412649_j3874060501586_1_alg».proof.Proof.Gen.KernelIdeal.Frame
import proofs.«412649_j3874060501586_1_alg».proof.Proof.KernelOps

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node table and the projection weight as the region finds them, at their literal types. -/
abbrev nodeArr (c : Dev nD) : S50000x128.Idx → EReal := V c main_arg0
abbrev weightArr (c : Dev nD) : S128x128.Idx → EReal := V c main_arg4

/-- The body's one stored value at entry (p, q) of the block: row p of the loaded rows against column q of the weight
    (the change of float format before the product is the identity here). -/
theorem pay_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  exact Ops.matmul128_apply (truncf .bf16 x bitsLt_bf16_f32) (truncf .bf16 w bitsLt_bf16_f32) p q

/-- Where the three windows' blocks sit at point t: the rows' block index is the point, every other block index 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point t writes back is its block of h = X · W, X and W the arrays the region finds. -/
theorem flushed_eq (c : Dev nD) (t : Fin cfg0.N) :
    (dat0 V c).flushed 2 t
      = ((cfg0.win 2).blk t).view.read (Elt Ideal) (Schnet.proj (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Schnet.proj (V c main_arg0) (V c main_arg4) (((cfg0.win 2).blk t).view.emb (ix2 p q))
  have hp : p.val < 5000 := p.isLt
  have he : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [he, Schnet.proj_ix2]
  refine (pay_apply (iblk0 V c 0 t) (iblk0 V c 1 t) p q).trans ?_
  unfold Schnet.projAt
  refine Finset.sum_congr rfl fun k _ => ?_
  have h0 : ((cfg0.win 0).blk t).view.emb (ix2 p k) = ix2 (⟨t.val * 5000 + p.val, by omega⟩ : Fin 50000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show nodeArr V c (((cfg0.win 0).blk t).view.emb (ix2 p k)) * weightArr V c (((cfg0.win 1).blk t).view.emb (ix2 k q)) = _
  rw [h0, h1]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every row lies in the block of the point its number divided by 5000 names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1, e2, e3, e4, e5, e6⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The projected node table after the first pallas_call. -/
theorem final (c : Dev nD) :
    (dat0 V c).arrAt 2 cfg0.N = Schnet.proj (V c main_arg0) (V c main_arg4) :=
  (dat0 V c).arrAt_eq_of_cover 2 _ (fun t _ => flushed_eq V c t) cover

end Cert.KernelIdeal.Region0

end
-- ==== Proof.Region1.lean ====
/-
  The edge messages: what the second pallas_call leaves in its output array.  Point t of its grid of 125 takes edges
  5000 t … 5000 t + 4999: their radial features through the two-layer filter network, their lengths through the cosine
  cutoff, and the gathered source rows, and writes source ⊙ (filter · cutoff) for those edges, so the array ends as the
  messages, entry by entry.
-/
import proofs.«412649_j3874060501586_1_alg».proof.Proof.Gen.KernelIdeal.Frame
import proofs.«412649_j3874060501586_1_alg».proof.Proof.KernelOps

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the region finds, at their literal types: the radial features, the lengths as a column, the gathered
    source rows, the two weights and the two bias rows. -/
abbrev featArr (c : Dev nD) : S625000x50.Idx → EReal := V c main_arg1
abbrev lenArr (c : Dev nD) : S625000x1.Idx → EReal := V c main_v6
abbrev srcArr (c : Dev nD) : S625000x128.Idx → EReal := V c main_v5
abbrev w1Arr (c : Dev nD) : S50x128.Idx → EReal := V c main_arg5
abbrev b1Arr (c : Dev nD) : S1x128.Idx → EReal := V c main_v7
abbrev w2Arr (c : Dev nD) : S128x128.Idx → EReal := V c main_arg7
abbrev b2Arr (c : Dev nD) : S1x128.Idx → EReal := V c main_v8

/-- The cutoff column of a block: ½ (cos (2π d) + 1) times the test d < ½ read as 0 or 1. -/
def cutCol (v34 v39 : FVec Ideal S5000x1 .f32) : FVec Ideal S5000x1 .f32 :=
  mulf (mulf (broadcast S5000x1 (Scalar.ofBits (F := Ideal) .f32 0x3F000000#32)) v39)
    (sitofp .f32 (extui 32 (cmpf .olt v34 (broadcast S5000x1 (Scalar.ofBits (F := Ideal) .f32 0x3F000000#32))) natLt_1_32))

/-- The filter block as two layers. -/
theorem filt_eq (g : Vec Ideal S5000x50 .f32) (w1 : Vec Ideal S50x128 .f32) (b1 : Vec Ideal S1x128 .f32)
    (w2 : Vec Ideal S128x128 .f32) (b2 : Vec Ideal S1x128 .f32) :
    k1_pay2 g w1 b1 w2 b2
      = addf (matmul dot_S5000x128_S128x128_S5000x128_1_0_0_1_n_n none
          (truncf .bf16 (Ops.sspBlock (addf (matmul dot_S5000x50_S50x128_S5000x128_1_0_0_1_n_n none
              (truncf .bf16 g bitsLt_bf16_f32) (truncf .bf16 w1 bitsLt_bf16_f32) (constant S5000x128 .f32 0x00000000#32))
            (broadcastTo S5000x128 (shapeCast S1x128 b1 shapeCasts_S1x128_S1x128) broadcasts_S1x128_S5000x128))) bitsLt_bf16_f32)
          (truncf .bf16 w2 bitsLt_bf16_f32) (constant S5000x128 .f32 0x00000000#32))
        (broadcastTo S5000x128 (shapeCast S1x128 b2 shapeCasts_S1x128_S1x128) broadcasts_S1x128_S5000x128) := rfl

/-- The filter block at entry (p, q). -/
theorem filt_apply (g : Vec Ideal S5000x50 .f32) (w1 : Vec Ideal S50x128 .f32) (b1 : Vec Ideal S1x128 .f32)
    (w2 : Vec Ideal S128x128 .f32) (b2 : Vec Ideal S1x128 .f32) (p : Fin 5000) (q : Fin 128) :
    k1_pay2 g w1 b1 w2 b2 (ix2 p q)
      = (∑ k : Fin 128, Schnet.ssp ((∑ r : Fin 50, g (ix2 p r) * w1 (ix2 r k)) + b1 (ix2 0 k)) * w2 (ix2 k q)) + b2 (ix2 0 q) := by
  rw [filt_eq]
  refine congrArg₂ (· + ·) ?_ (Ops.bias_apply b2 p q)
  refine (Ops.matmul128_apply _ _ p q).trans ?_
  refine Finset.sum_congr rfl fun k _ => ?_
  refine congrArg (· * w2 (ix2 k q)) ?_
  refine (Ops.hidden_apply _ b1 p k).trans ?_
  exact congrArg Schnet.ssp (congrArg (· + b1 (ix2 0 k)) (Ops.matmul50_apply _ _ p k))

/-- The stored value as the gathered rows times the filter times the cutoff column laid along the features. -/
theorem pay_eq (f : FVec Ideal S5000x128 .f32) (v34 v39 : FVec Ideal S5000x1 .f32) (hg : Vec Ideal S5000x128 .f32) :
    k1_pay1 f v34 v39 hg
      = mulf (shapeCast S5000x128 hg shapeCasts_S5000x128_S5000x128)
          (mulf f (broadcastTo S5000x128 (cutCol v34 v39) broadcasts_S5000x1_S5000x128)) := rfl

/-- The cutoff column at row p, from the loaded lengths. -/
theorem cutCol_apply (d : Vec Ideal S5000x1 .f32) (p : Fin 5000) :
    cutCol (k1_pay3 d) (k1_pay4 d) (ix2 p 0)
      = (Schnet.cHalf * (Ideal.cos (d (ix2 p 0) * Schnet.c2pi) + Schnet.c1))
          * (((Ideal.cmp .olt (d (ix2 p 0)) Schnet.cHalf).toNat : ℝ) : EReal) := by
  show (Schnet.cHalf * (Ideal.cos (shapeCast S5000x1 d shapeCasts_S5000x1_S5000x1 (ix2 p 0) * Schnet.c2pi) + Schnet.c1))
      * ((((Ideal.cmp .olt (shapeCast S5000x1 d shapeCasts_S5000x1_S5000x1 (ix2 p 0)) Schnet.cHalf).setWidth 32).toInt : ℝ) : EReal) = _
  rw [shapeCast_self, Schnet.bit_toInt_eq_toNat]

/-- The stored value at entry (p, q) of the block. -/
theorem pay_apply (g : Vec Ideal S5000x50 .f32) (d : Vec Ideal S5000x1 .f32) (hg : Vec Ideal S5000x128 .f32)
    (w1 : Vec Ideal S50x128 .f32) (b1 : Vec Ideal S1x128 .f32) (w2 : Vec Ideal S128x128 .f32) (b2 : Vec Ideal S1x128 .f32)
    (p : Fin 5000) (q : Fin 128) :
    k1_pay1 (k1_pay2 g w1 b1 w2 b2) (k1_pay3 d) (k1_pay4 d) hg (ix2 p q)
      = hg (ix2 p q) * (((∑ k : Fin 128, Schnet.ssp ((∑ r : Fin 50, g (ix2 p r) * w1 (ix2 r k)) + b1 (ix2 0 k)) * w2 (ix2 k q)) + b2 (ix2 0 q))
          * ((Schnet.cHalf * (Ideal.cos (d (ix2 p 0) * Schnet.c2pi) + Schnet.c1))
              * (((Ideal.cmp .olt (d (ix2 p 0)) Schnet.cHalf).toNat : ℝ) : EReal))) := by
  rw [pay_eq]
  refine congrArg₂ (· * ·) (congrFun (shapeCast_self hg shapeCasts_S5000x128_S5000x128) (ix2 p q)) ?_
  refine congrArg₂ (· * ·) (filt_apply g w1 b1 w2 b2 p q) ?_
  exact (Ops.col_apply _ p q).trans (cutCol_apply d p)

/-- Where the windows' blocks sit at point t: the three edge-row windows and the output move with the point, the weights
    and biases stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 125 :=
  (by decide +kernel : ∀ t : Fin grid1.N, _)

/-- What point t writes back is its block of the messages. -/
theorem flushed_eq (c : Dev nD) (t : Fin cfg1.N) :
    (dat1 V c).flushed 7 t
      = ((cfg1.win 7).blk t).view.read (Elt Ideal)
          (Schnet.edge (V c main_v5) (V c main_arg1) (Ops.colVec (V c main_v6)) (V c main_arg5) (Ops.rowVec (V c main_v7))
            (V c main_arg7) (Ops.rowVec (V c main_v8))) := by
  show (cfg1.win 7).cut (grid1.coords t) ((dat1 V c).after 7 t) = _
  rw [after1_7]
  unfold out1_7
  rw [View.canon_unit_zero hz]
  simp only [View.ld_unit_zero (S := S5000x50) hz, View.ld_unit_zero (S := S5000x1) hz, View.ld_unit_zero (S := S5000x128) hz,
    View.ld_unit_zero (S := S50x128) hz, View.ld_unit_zero (S := S128x128) hz, View.ld_unit_zero (S := S1x128) hz]
  obtain ⟨e00, e01, e10, e11, e20, e21, e30, e31, e40, e41, e50, e51, e60, e61, e70, e71, et⟩ := idx_facts t
  funext j
  obtain ⟨p, q, rfl⟩ : ∃ (p : Fin 5000) (q : Fin 128), j = ix2 p q := ⟨j 0, j 1, eq_ix2 j⟩
  show k1_pay1 (k1_pay2 (iblk1 V c 0 t) (iblk1 V c 3 t) (iblk1 V c 4 t) (iblk1 V c 5 t) (iblk1 V c 6 t)) (k1_pay3 (iblk1 V c 1 t))
      (k1_pay4 (iblk1 V c 1 t)) (iblk1 V c 2 t) (ix2 p q)
    = Schnet.edge (V c main_v5) (V c main_arg1) (Ops.colVec (V c main_v6)) (V c main_arg5) (Ops.rowVec (V c main_v7))
        (V c main_arg7) (Ops.rowVec (V c main_v8)) (((cfg1.win 7).blk t).view.emb (ix2 p q))
  have hp : p.val < 5000 := p.isLt
  have he : ((cfg1.win 7).blk t).view.emb (ix2 p q) = ix2 (⟨t.val * 5000 + p.val, by omega⟩ : Fin 625000) q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  rw [he, Schnet.edge_ix2]
  refine (pay_apply (iblk1 V c 0 t) (iblk1 V c 1 t) (iblk1 V c 2 t) (iblk1 V c 3 t) (iblk1 V c 4 t) (iblk1 V c 5 t) (iblk1 V c 6 t) p q).trans ?_
  unfold Schnet.edgeAt Schnet.filtAt Schnet.edgeHidAt Schnet.cutAt
  have hsrc : ((cfg1.win 2).blk t).view.emb (ix2 p q) = ix2 (⟨t.val * 5000 + p.val, by omega⟩ : Fin 625000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have hfeat : ∀ r : Fin 50, ((cfg1.win 0).blk t).view.emb (ix2 p r) = ix2 (⟨t.val * 5000 + p.val, by omega⟩ : Fin 625000) r := fun r => by
    funext a; apply Fin.ext
    match a with
    | ⟨0, _⟩ => show win1_0.index t (0 : Fin 2) * 5000 + 1 * p.val = t.val * 5000 + p.val; omega
    | ⟨1, _⟩ => show win1_0.index t (1 : Fin 2) * 50 + 1 * r.val = r.val; omega
  have hlen : ((cfg1.win 1).blk t).view.emb (ix2 p (0 : Fin 1)) = ix2 (⟨t.val * 5000 + p.val, by omega⟩ : Fin 625000) (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have hw1 : ∀ (r : Fin 50) (k : Fin 128), ((cfg1.win 3).blk t).view.emb (ix2 r k) = ix2 r k := fun r k => by
    funext a; apply Fin.ext
    match a with
    | ⟨0, _⟩ => show win1_3.index t (0 : Fin 2) * 50 + 1 * r.val = r.val; omega
    | ⟨1, _⟩ => show win1_3.index t (1 : Fin 2) * 128 + 1 * k.val = k.val; omega
  have hb1 : ∀ (k : Fin 128), ((cfg1.win 4).blk t).view.emb (ix2 (0 : Fin 1) k) = ix2 (0 : Fin 1) k := fun k => by
    funext a; apply Fin.ext
    match a with
    | ⟨0, _⟩ => show win1_4.index t (0 : Fin 2) * 1 + 1 * 0 = 0; omega
    | ⟨1, _⟩ => show win1_4.index t (1 : Fin 2) * 128 + 1 * k.val = k.val; omega
  have hw2 : ∀ (j k : Fin 128), ((cfg1.win 5).blk t).view.emb (ix2 j k) = ix2 j k := fun j k => by
    funext a; apply Fin.ext
    match a with
    | ⟨0, _⟩ => show win1_5.index t (0 : Fin 2) * 128 + 1 * j.val = j.val; omega
    | ⟨1, _⟩ => show win1_5.index t (1 : Fin 2) * 128 + 1 * k.val = k.val; omega
  have hb2 : ∀ (k : Fin 128), ((cfg1.win 6).blk t).view.emb (ix2 (0 : Fin 1) k) = ix2 (0 : Fin 1) k := fun k => by
    funext a; apply Fin.ext
    match a with
    | ⟨0, _⟩ => show win1_6.index t (0 : Fin 2) * 1 + 1 * 0 = 0; omega
    | ⟨1, _⟩ => show win1_6.index t (1 : Fin 2) * 128 + 1 * k.val = k.val; omega
  show srcArr V c (((cfg1.win 2).blk t).view.emb (ix2 p q))
      * (((∑ k : Fin 128, Schnet.ssp ((∑ r : Fin 50, featArr V c (((cfg1.win 0).blk t).view.emb (ix2 p r)) * w1Arr V c (((cfg1.win 3).blk t).view.emb (ix2 r k)))
              + b1Arr V c (((cfg1.win 4).blk t).view.emb (ix2 (0 : Fin 1) k))) * w2Arr V c (((cfg1.win 5).blk t).view.emb (ix2 k q)))
            + b2Arr V c (((cfg1.win 6).blk t).view.emb (ix2 (0 : Fin 1) q)))
          * ((Schnet.cHalf * (Ideal.cos (lenArr V c (((cfg1.win 1).blk t).view.emb (ix2 p (0 : Fin 1))) * Schnet.c2pi) + Schnet.c1))
              * (((Ideal.cmp .olt (lenArr V c (((cfg1.win 1).blk t).view.emb (ix2 p (0 : Fin 1)))) Schnet.cHalf).toNat : ℝ) : EReal))) = _
  simp only [hsrc, hfeat, hlen, hw1, hb1, hw2, hb2]

/-- An index of the output array is in point t's block iff each coordinate is in the block's range on its axis. -/
theorem mem_blk (t : Fin cfg1.N) (i : S625000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v9).slice (win1_7.rect t)).set ↔ _
  rw [View.set_slice_whole, Rect.mem_set_unit]
  exact Iff.rfl

/-- Every edge lies in the block of the point its number divided by 5000 names. -/
theorem cover (i : S625000x128.Idx) :
    ∃ t : Fin cfg1.N, (cfg1.win 7).flush t = true ∧ i ∈ ((cfg1.win 7).blk t).view.set := by
  have hi0 : (i 0).val < 625000 := (i 0).isLt
  have hi1 : (i 1).val < 128 := (i 1).isLt
  let t : Fin cfg1.N := ⟨(i 0).val / 5000, by rw [show cfg1.N = 125 from N_1]; omega⟩
  obtain ⟨e00, e01, e10, e11, e20, e21, e30, e31, e40, e41, e50, e51, e60, e61, e70, e71, et⟩ := idx_facts t
  have ht : t.val = (i 0).val / 5000 := rfl
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The messages after the second pallas_call. -/
theorem final (c : Dev nD) :
    (dat1 V c).arrAt 7 cfg1.N
      = Schnet.edge (V c main_v5) (V c main_arg1) (Ops.colVec (V c main_v6)) (V c main_arg5) (Ops.rowVec (V c main_v7))
          (V c main_arg7) (Ops.rowVec (V c main_v8)) :=
  (dat1 V c).arrAt_eq_of_cover 7 _ (fun t _ => flushed_eq V c t) cover

end Cert.KernelIdeal.Region1

end
-- ==== Proof.Region2.lean ====
/-
  The node update: what the third pallas_call leaves in its output array.  Point t of its grid of 10 takes rows
  5000 t … 5000 t + 4999 of the summed messages a and of the node table x and writes x + (ssp (a · V₁ + β₁) · V₂ + β₂)
  for those rows, so the array ends as the new node table, entry by entry.
-/
import proofs.«412649_j3874060501586_1_alg».proof.Proof.Gen.KernelIdeal.Frame
import proofs.«412649_j3874060501586_1_alg».proof.Proof.KernelOps

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the region finds, at their literal types: the summed messages, the two weights, the two bias rows, the
    node table. -/
abbrev aggArr (c : Dev nD) : S50000x128.Idx → EReal := V c main_v12
abbrev w1Arr (c : Dev nD) : S128x128.Idx → EReal := V c main_arg9
abbrev b1Arr (c : Dev nD) : S1x128.Idx → EReal := V c main_v13
abbrev w2Arr (c : Dev nD) : S128x128.Idx → EReal := V c main_arg11
abbrev b2Arr (c : Dev nD) : S1x128.Idx → EReal := V c main_v14
abbrev nodeArr (c : Dev nD) : S50000x128.Idx → EReal := V c main_arg0

/-- The body's stored value as two layers: a product block plus a bias row through the softplus chain, a second product
    plus a bias row, added to the loaded node rows. -/
theorem pay_eq (a : Vec Ideal S5000x128 .f32) (w1 : Vec Ideal S128x128 .f32) (b1 : Vec Ideal S1x128 .f32)
    (w2 : Vec Ideal S128x128 .f32) (b2 : Vec Ideal S1x128 .f32) (x : Vec Ideal S5000x128 .f32) :
    k2_pay1 a w1 b1 w2 b2 x
      = addf x (addf (matmul dot_S5000x128_S128x128_S5000x128_1_0_0_1_n_n none
          (truncf .bf16 (Ops.sspBlock (addf (matmul dot_S5000x128_S128x128_S5000x128_1_0_0_1_n_n none
              (truncf .bf16 (shapeCast S5000x128 a shapeCasts_S5000x128_S5000x128) bitsLt_bf16_f32) (truncf .bf16 w1 bitsLt_bf16_f32)
              (constant S5000x128 .f32 0x00000000#32))
            (broadcastTo S5000x128 (shapeCast S1x128 b1 shapeCasts_S1x128_S1x128) broadcasts_S1x128_S5000x128))) bitsLt_bf16_f32)
          (truncf .bf16 w2 bitsLt_bf16_f32) (constant S5000x128 .f32 0x00000000#32))
        (broadcastTo S5000x128 (shapeCast S1x128 b2 shapeCasts_S1x128_S1x128) broadcasts_S1x128_S5000x128)) := rfl

/-- The stored value at entry (p, q) of the block. -/
theorem pay_apply (a : Vec Ideal S5000x128 .f32) (w1 : Vec Ideal S128x128 .f32) (b1 : Vec Ideal S1x128 .f32)
    (w2 : Vec Ideal S128x128 .f32) (b2 : Vec Ideal S1x128 .f32) (x : Vec Ideal S5000x128 .f32) (p : Fin 5000) (q : Fin 128) :
    k2_pay1 a w1 b1 w2 b2 x (ix2 p q)
      = x (ix2 p q) + ((∑ k : Fin 128, Schnet.ssp ((∑ j : Fin 128, a (ix2 p j) * w1 (ix2 j k)) + b1 (ix2 0 k)) * w2 (ix2 k q))
          + b2 (ix2 0 q)) := by
  rw [pay_eq]
  refine congrArg (x (ix2 p q) + ·) ?_
  refine congrArg₂ (· + ·) ?_ (Ops.bias_apply b2 p q)
  refine (Ops.matmul128_apply _ _ p q).trans ?_
  refine Finset.sum_congr rfl fun k _ => ?_
  refine congrArg (· * w2 (ix2 k q)) ?_
  refine (Ops.hidden_apply _ b1 p k).trans ?_
  refine congrArg Schnet.ssp (congrArg (· + b1 (ix2 0 k)) ?_)
  refine (Ops.matmul128_apply _ _ p k).trans ?_
  refine Finset.sum_congr rfl fun j _ => ?_
  refine congrArg (· * w1 (ix2 j k)) ?_
  exact congrFun (shapeCast_self a shapeCasts_S5000x128_S5000x128) (ix2 p j)

/-- Where the windows' blocks sit at point t: the two row windows and the output move with the point, the rest stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 ∧ t.val < 10 :=
  (by decide +kernel : ∀ t : Fin grid2.N, _)

/-- What point t writes back is its block of the new node table. -/
theorem flushed_eq (c : Dev nD) (t : Fin cfg2.N) :
    (dat2 V c).flushed 6 t
      = ((cfg2.win 6).blk t).view.read (Elt Ideal)
          (Schnet.node (V c main_arg0) (V c main_v12) (V c main_arg9) (Ops.rowVec (V c main_v13)) (V c main_arg11) (Ops.rowVec (V c main_v14))) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, et⟩ := idx_facts t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = Schnet.node (V c main_arg0) (V c main_v12) (V c main_arg9) (Ops.rowVec (V c main_v13)) (V c main_arg11) (Ops.rowVec (V c main_v14))
        (((cfg2.win 6).blk t).view.emb (ix2 p q))
  have hp : p.val < 5000 := p.isLt
  have he : ((cfg2.win 6).blk t).view.emb (ix2 p q) = ix2 (⟨t.val * 5000 + p.val, by omega⟩ : Fin 50000) q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  rw [he, Schnet.node_ix2]
  refine (pay_apply (iblk2 V c 0 t) (iblk2 V c 1 t) (iblk2 V c 2 t) (iblk2 V c 3 t) (iblk2 V c 4 t) (iblk2 V c 5 t) p q).trans ?_
  unfold Schnet.nodeAt Schnet.nodeHidAt
  have hx : ((cfg2.win 5).blk t).view.emb (ix2 p q) = ix2 (⟨t.val * 5000 + p.val, by omega⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  have ha : ∀ j : Fin 128, ((cfg2.win 0).blk t).view.emb (ix2 p j) = ix2 (⟨t.val * 5000 + p.val, by omega⟩ : Fin 50000) j := fun j => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * j.val = j.val; omega
  have hw1 : ∀ (j k : Fin 128), ((cfg2.win 1).blk t).view.emb (ix2 j k) = ix2 j k := fun j k => by
    funext a; apply Fin.ext
    match a with
    | ⟨0, _⟩ => show win2_1.index t (0 : Fin 2) * 128 + 1 * j.val = j.val; omega
    | ⟨1, _⟩ => show win2_1.index t (1 : Fin 2) * 128 + 1 * k.val = k.val; omega
  have hb1 : ∀ (k : Fin 128), ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have hw2 : ∀ (j k : Fin 128), ((cfg2.win 3).blk t).view.emb (ix2 j k) = ix2 j k := fun j k => by
    funext a; apply Fin.ext
    match a with
    | ⟨0, _⟩ => show win2_3.index t (0 : Fin 2) * 128 + 1 * j.val = j.val; omega
    | ⟨1, _⟩ => show win2_3.index t (1 : Fin 2) * 128 + 1 * k.val = k.val; omega
  have hb2 : ∀ (k : Fin 128), ((cfg2.win 4).blk t).view.emb (ix2 (0 : Fin 1) k) = ix2 (0 : Fin 1) k := fun k => by
    funext a; apply Fin.ext
    match a with
    | ⟨0, _⟩ => show win2_4.index t (0 : Fin 2) * 1 + 1 * 0 = 0; omega
    | ⟨1, _⟩ => show win2_4.index t (1 : Fin 2) * 128 + 1 * k.val = k.val; omega
  show nodeArr V c (((cfg2.win 5).blk t).view.emb (ix2 p q))
      + ((∑ k : Fin 128, Schnet.ssp ((∑ j : Fin 128, aggArr V c (((cfg2.win 0).blk t).view.emb (ix2 p j)) * w1Arr V c (((cfg2.win 1).blk t).view.emb (ix2 j k)))
            + b1Arr V c (((cfg2.win 2).blk t).view.emb (ix2 (0 : Fin 1) k))) * w2Arr V c (((cfg2.win 3).blk t).view.emb (ix2 k q)))
          + b2Arr V c (((cfg2.win 4).blk t).view.emb (ix2 (0 : Fin 1) q))) = _
  simp only [hx, ha, hw1, hb1, hw2, hb2]

/-- An index of the output array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v15).slice (win2_6.rect t)).set ↔ _
  rw [View.set_slice_whole, Rect.mem_set_unit]
  exact Iff.rfl

/-- Every row lies in the block of the point its number divided by 5000 names. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨e00, e01, e10, e11, e20, e21, e30, e31, e40, e41, e50, e51, e60, e61, et⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The new node table after the third pallas_call. -/
theorem final (c : Dev nD) :
    (dat2 V c).arrAt 6 cfg2.N
      = Schnet.node (V c main_arg0) (V c main_v12) (V c main_arg9) (Ops.rowVec (V c main_v13)) (V c main_arg11) (Ops.rowVec (V c main_v14)) :=
  (dat2 V c).arrAt_eq_of_cover 6 _ (fun t _ => flushed_eq V c t) cover

end Cert.KernelIdeal.Region2

end
-- ==== Proof.Take.lean ====
/-
  jnp.take as the kernel program spells it: the index vector with 50000 added to its negative entries, the rows gathered
  at the wrapped indices, and a fill pattern on every edge whose wrapped index is still outside 0 … 49999.  Where every
  index i has -50000 ≤ i < 50000 the wrapped index is in range on every edge, no edge is filled, and the filled gather is
  the plain gather at the wrapped indices.
-/
import proofs.«412649_j3874060501586_1_alg».proof.Proof.Gen.KernelIdeal
import Idealize.ShloMosaic.Lib.ValueIdx
import Idealize.ShloMosaic.Lib.Pipeline.Value
import Idealize.ShloMosaic.Lib.Affine
import Mathlib.Tactic.SplitIfs

noncomputable section

namespace Cert.KernelIdeal.Glue

open Cert.KernelIdeal Cert.KernelIdeal.Gen Idealize.ShloMosaic Idealize.ShloMosaic.ValueIdx

/-! ## The index vectors and the filled gather -/

/-- The source node of every edge: row 0 of the edge list. -/
def srcIdx (E : IVec S2x625000 32) : IVec S625000 32 :=
  shapeCast S625000 (extractStridedSlice S1x625000 ![0, 0] E slices_S2x625000_S1x625000_0_0) shapeCasts_S1x625000_S625000

/-- The target node of every edge: row 1 of the edge list. -/
def dstIdx (E : IVec S2x625000 32) : IVec S625000 32 :=
  shapeCast S625000 (extractStridedSlice S1x625000 ![1, 0] E slices_S2x625000_S1x625000_1_0) shapeCasts_S1x625000_S625000

/-- An index vector with 50000 added to its negative entries, as a column of start indices. -/
def wrapCol (idx : IVec S625000 32) : IVec S625000x1 32 :=
  broadcastInDim S625000x1 ![0] bcast_S625000_S625000x1_0
    (select (cmpi .slt idx (broadcastInDim S625000 ![] bcast_S_S625000 (constantI S_ 32 0#32)))
      (addi idx (broadcastInDim S625000 ![] bcast_S_S625000 (constantI S_ 32 50000#32))) idx)

/-- Per edge, whether the wrapped index lies in 0 … 49999. -/
def inRange (idx : IVec S625000 32) : IVec S625000 1 :=
  Host.reduce IntOp.andi
    (andi (cmpi .sge (wrapCol idx) (broadcastInDim S625000x1 ![] bcast_S_S625000x1 (constantI S_ 32 0#32)))
      (cmpi .sle (wrapCol idx) (broadcastInDim S625000x1 ![0, 1] bcast_S1x1_S625000x1_0_1
        (broadcastInDim S1x1 ![1] bcast_S1_S1x1_1 (constantI S1 32 49999#32)))))
    (constantI S_ 1 1#1) reducesTo_S625000x1_S625000_d1 h_S_

/-- The rows of `h` at the wrapped indices, and the fill pattern on the edges whose wrapped index is out of range. -/
def takeFill (h : FVec Ideal S50000x128 .f32) (idx : IVec S625000 32) : FVec Ideal S625000x128 .f32 :=
  select (broadcastInDim S625000x128 ![0] bcast_S625000_S625000x128_0 (inRange idx))
    (Host.gather gather_S50000x128_S625000x1_S625000x128_1_0_n_n_0_1_1128 h (wrapCol idx))
    (broadcastInDim S625000x128 ![] bcast_S_S625000x128 (constant (F := Ideal) S_ .f32 0x7FC00000#32))

/-- The messages summed into their target nodes, from zero. -/
def aggregate (idx : IVec S625000 32) (msg : FVec Ideal S625000x128 .f32) : FVec Ideal S50000x128 .f32 :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 idx) msg

/-! ## A signed index wrapped once -/

theorem ofBool_one {b : Bool} : BitVec.ofBool b = 1#1 ↔ b = true := by cases b <;> decide

/-- Adding 50000 to a negative word not below -50000 does not wrap around. -/
theorem toInt_add_small (i : BitVec 32) (hlo : (-50000 : Int) ≤ i.toInt) (hneg : i.toInt < 0) :
    (i + 50000#32).toInt = i.toInt + 50000 := by
  rw [BitVec.toInt_add]
  have h5 : (50000#32 : BitVec 32).toInt = 50000 := by decide
  rw [h5]
  unfold Int.bmod
  simp only
  split_ifs <;> omega

/-- A word i with -50000 ≤ i < 50000, with 50000 added when negative, lies in 0 … 49999. -/
theorem wrap_in_range (i : BitVec 32)
    (h1 : IntOp.cmpi .sge i 4294917296#32 = 1#1) (h2 : IntOp.cmpi .slt i 50000#32 = 1#1) :
    IntOp.andi (IntOp.cmpi .sge (Scalar.select (IntOp.cmpi .slt i 0#32) (IntOp.addi i 50000#32) i) 0#32)
               (IntOp.cmpi .sle (Scalar.select (IntOp.cmpi .slt i 0#32) (IntOp.addi i 50000#32) i) 49999#32) = 1#1 := by
  have hlo : (-50000 : Int) ≤ i.toInt := by
    have := ofBool_one.1 h1
    simpa [BitVec.sle] using this
  have hhi : i.toInt < 50000 := by
    have := ofBool_one.1 h2
    simpa [BitVec.slt] using this
  rw [IntOp.andi_eq_one]
  by_cases hneg : i.toInt < 0
  · have hs : IntOp.cmpi .slt i 0#32 = 1#1 := ofBool_one.2 (by simp [BitVec.slt, hneg])
    rw [hs, select_one]
    have hadd := toInt_add_small i hlo hneg
    constructor
    · exact ofBool_one.2 (by unfold IntOp.addi; simp [BitVec.sle, hadd]; omega)
    · exact ofBool_one.2 (by unfold IntOp.addi; simp [BitVec.sle, hadd]; omega)
  · have hs : IntOp.cmpi .slt i 0#32 = 0#1 := by
      have : i.slt 0#32 = false := by simp [BitVec.slt]; omega
      show BitVec.ofBool (i.slt 0#32) = 0#1
      rw [this]; rfl
    rw [hs, select_zero]
    constructor
    · exact ofBool_one.2 (by simp [BitVec.sle]; omega)
    · exact ofBool_one.2 (by simp [BitVec.sle]; omega)

/-! ## A reduction by `and` of all ones -/

theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hf =>
    foldl_andi_one f l _ (IntOp.andi_eq_one.2 ⟨h, hf a List.mem_cons_self⟩) (fun n hn => hf n (List.mem_cons_of_mem _ hn))

/-- A reduce by `and` from 1 over an array of ones is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  unfold Host.reduce
  exact foldl_andi_one (fun n => x (s.rowMajor.symm n)) _ _ hinit (fun n _ => hx _)

/-! ## The filled gather on in-range indices -/

/-- The wrapped index of edge e. -/
theorem wrapCol_apply (idx : IVec S625000 32) (e : Fin 625000) (u : Fin 1) :
    wrapCol idx (ix2 e u)
      = Scalar.select (IntOp.cmpi .slt (idx (ix1 e)) 0#32) (IntOp.addi (idx (ix1 e)) 50000#32) (idx (ix1 e)) := by
  unfold wrapCol
  exact broadcastInDim_apply _ bcast_S625000_S625000x1_0 _ (ix2 e u) (ix1 e) (fun a => by
    match a with
    | ⟨0, _⟩ => show e.val = if (625000 : Nat) = 1 then 0 else e.val; rw [if_neg (by decide)])

/-- With every index in -50000 … 49999 no edge is filled. -/
theorem inRange_one (idx : IVec S625000 32)
    (hin : ∀ e : Fin 625000, IntOp.cmpi .sge (idx (ix1 e)) 4294917296#32 = 1#1 ∧ IntOp.cmpi .slt (idx (ix1 e)) 50000#32 = 1#1)
    (e : Fin 625000) : inRange idx (ix1 e) = 1#1 := by
  unfold inRange
  refine reduce_andi_one _ _ _ _ _ rfl fun i' => ?_
  obtain ⟨e', u, rfl⟩ : ∃ (e' : Fin 625000) (u : Fin 1), i' = ix2 e' u := ⟨i' 0, i' 1, eq_ix2 i'⟩
  show IntOp.andi (IntOp.cmpi .sge (wrapCol idx (ix2 e' u)) 0#32) (IntOp.cmpi .sle (wrapCol idx (ix2 e' u)) 49999#32) = 1#1
  rw [wrapCol_apply]
  exact wrap_in_range _ (hin e').1 (hin e').2

/-- So the filled gather is the gather at the wrapped indices. -/
theorem takeFill_eq_gather (h : FVec Ideal S50000x128 .f32) (idx : IVec S625000 32)
    (hin : ∀ e : Fin 625000, IntOp.cmpi .sge (idx (ix1 e)) 4294917296#32 = 1#1 ∧ IntOp.cmpi .slt (idx (ix1 e)) 50000#32 = 1#1) :
    takeFill h idx = Host.gather gather_S50000x128_S625000x1_S625000x128_1_0_n_n_0_1_1128 h (wrapCol idx) := by
  funext i
  obtain ⟨e, f, rfl⟩ : ∃ (e : Fin 625000) (f : Fin 128), i = ix2 e f := ⟨i 0, i 1, eq_ix2 i⟩
  have hb : broadcastInDim S625000x128 ![0] bcast_S625000_S625000x128_0 (inRange idx) (ix2 e f) = 1#1 :=
    (broadcastInDim_apply _ bcast_S625000_S625000x128_0 (inRange idx) (ix2 e f) (ix1 e) (fun a => by
      match a with
      | ⟨0, _⟩ => show e.val = if (625000 : Nat) = 1 then 0 else e.val; rw [if_neg (by decide)])).trans (inRange_one idx hin e)
  unfold takeFill
  show Scalar.select (broadcastInDim S625000x128 ![0] bcast_S625000_S625000x128_0 (inRange idx) (ix2 e f)) _ _ = _
  rw [hb, select_one]

end Cert.KernelIdeal.Glue

end
-- ==== Proof.LibKeepdims.lean ====
/-
  Two layout reads for reductions that keep their axis: a vector cast to a one-column matrix, and the index a
  reduction over the columns of a matrix inserts.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reducing an `[a, b]` matrix over its columns: the index inserted at row `i` and column `k` is `(i, k)`. -/
theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

/-- The f32 pattern of minus infinity is the bottom of the extended reals. -/
theorem ofBits_neg_inf_f32 : Ideal.ofBits .f32 0xFF800000#32 = ⊥ := by simp [Ideal.ofBits, Ideal.ieee]

end Idealize.ShloMosaic.ValueIdx
-- ==== Proof.Glue.lean ====
/-
  The host operations between the three pallas_calls, read back: which arrays each call finds and what the program's two
  results hold.  The first call finds the node table and the projection weight as launched.  Between the first and the
  second the projected rows are gathered at the source node of every edge (with wrap-around of a negative index, and a
  fill where the wrapped index is still outside 0 … 49999), the lengths become a column and the two biases rows.  Between the
  second and the third the messages are summed into their target nodes and two more biases become rows.  So the messages
  and the new node table are the entry-by-entry formulas of the specification at the launch contents of the arguments.
-/
import proofs.«412649_j3874060501586_1_alg».proof.Proof.Gen.KernelIdeal.Frame
import proofs.«412649_j3874060501586_1_alg».proof.Proof.Region0
import proofs.«412649_j3874060501586_1_alg».proof.Proof.Region1
import proofs.«412649_j3874060501586_1_alg».proof.Proof.Region2
import proofs.«412649_j3874060501586_1_alg».proof.Proof.Take
import proofs.«412649_j3874060501586_1_alg».proof.Proof.LibKeepdims
import Idealize.ShloMosaic.Lib.StableHlo.Run
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Through each stretch of host operations, at any contents `W` before it -/

section Stretches
variable (W : Valuation τ sig (Elt Ideal))

theorem pre_arg0 : StableHlo.after hostOps0 W (Proc.devRef .tc main_arg0) = W (Proc.devRef .tc main_arg0) := by after_results
theorem pre_arg1 : StableHlo.after hostOps0 W (Proc.devRef .tc main_arg1) = W (Proc.devRef .tc main_arg1) := by after_results
theorem pre_arg2 : StableHlo.after hostOps0 W (Proc.devRef .tc main_arg2) = W (Proc.devRef .tc main_arg2) := by after_results
theorem pre_arg4 : StableHlo.after hostOps0 W (Proc.devRef .tc main_arg4) = W (Proc.devRef .tc main_arg4) := by after_results
theorem pre_arg5 : StableHlo.after hostOps0 W (Proc.devRef .tc main_arg5) = W (Proc.devRef .tc main_arg5) := by after_results
theorem pre_arg6 : StableHlo.after hostOps0 W (Proc.devRef .tc main_arg6) = W (Proc.devRef .tc main_arg6) := by after_results
theorem pre_arg7 : StableHlo.after hostOps0 W (Proc.devRef .tc main_arg7) = W (Proc.devRef .tc main_arg7) := by after_results
theorem pre_arg8 : StableHlo.after hostOps0 W (Proc.devRef .tc main_arg8) = W (Proc.devRef .tc main_arg8) := by after_results
theorem pre_arg9 : StableHlo.after hostOps0 W (Proc.devRef .tc main_arg9) = W (Proc.devRef .tc main_arg9) := by after_results
theorem pre_arg10 : StableHlo.after hostOps0 W (Proc.devRef .tc main_arg10) = W (Proc.devRef .tc main_arg10) := by after_results
theorem pre_arg11 : StableHlo.after hostOps0 W (Proc.devRef .tc main_arg11) = W (Proc.devRef .tc main_arg11) := by after_results
theorem pre_arg12 : StableHlo.after hostOps0 W (Proc.devRef .tc main_arg12) = W (Proc.devRef .tc main_arg12) := by after_results
theorem pre_v1 : StableHlo.after hostOps0 W (Proc.devRef .tc main_v1) = srcIdx (W (Proc.devRef .tc main_arg3)) := by
  after_results <;> rfl
theorem pre_v3 : StableHlo.after hostOps0 W (Proc.devRef .tc main_v3) = dstIdx (W (Proc.devRef .tc main_arg3)) := by
  after_results <;> rfl

end Stretches

section Stretches2
variable (W : Valuation τ sig (Elt Ideal))

/-- The host operations between the first and the second pallas_call, from contents `W`. -/
abbrev mid : Valuation τ sig (Elt Ideal) := StableHlo.after hostOps1_1 (StableHlo.after hostOps1 W)

theorem mid_arg0 : mid W (Proc.devRef .tc main_arg0) = W (Proc.devRef .tc main_arg0) := by after_results
theorem mid_arg1 : mid W (Proc.devRef .tc main_arg1) = W (Proc.devRef .tc main_arg1) := by after_results
theorem mid_arg5 : mid W (Proc.devRef .tc main_arg5) = W (Proc.devRef .tc main_arg5) := by after_results
theorem mid_arg7 : mid W (Proc.devRef .tc main_arg7) = W (Proc.devRef .tc main_arg7) := by after_results
theorem mid_arg9 : mid W (Proc.devRef .tc main_arg9) = W (Proc.devRef .tc main_arg9) := by after_results
theorem mid_arg10 : mid W (Proc.devRef .tc main_arg10) = W (Proc.devRef .tc main_arg10) := by after_results
theorem mid_arg11 : mid W (Proc.devRef .tc main_arg11) = W (Proc.devRef .tc main_arg11) := by after_results
theorem mid_arg12 : mid W (Proc.devRef .tc main_arg12) = W (Proc.devRef .tc main_arg12) := by after_results
theorem mid_v3 : mid W (Proc.devRef .tc main_v3) = W (Proc.devRef .tc main_v3) := by after_results
/-- A value carried to a buffer's own type and back is the value. -/
theorem ofBuf_toBuf {T : BufTy} (x : StableHlo.TRef sig T) (v : T.Contents (Elt Ideal)) : x.ofBuf (x.toBuf v) = v := by
  obtain ⟨r, h1, h2, h3⟩ := x
  subst h1
  rfl
theorem toBuf_v5 (v : (⟨S625000x128, .f32⟩ : BufTy).Contents (Elt Ideal)) :
    (StableHlo.TRef.of main_v5 : StableHlo.TRef sig ⟨S625000x128, .f32⟩).toBuf v = v := rfl
theorem ofBuf_v4 (v : (⟨S50000x128, .f32⟩ : BufTy).Contents (Elt Ideal)) :
    (StableHlo.TRef.of main_v4 : StableHlo.TRef sig ⟨S50000x128, .f32⟩).ofBuf v = v := rfl
theorem ofBuf_v1 (v : (⟨S625000, .i32⟩ : BufTy).Contents (Elt Ideal)) :
    (StableHlo.TRef.of main_v1 : StableHlo.TRef sig ⟨S625000, .i32⟩).ofBuf v = v := rfl

/-- The filled gather with its three definitions opened. -/
theorem takeFill_eq (h : FVec Ideal S50000x128 .f32) (idx : IVec S625000 32) : takeFill h idx =
  select (broadcastInDim S625000x128 ![0] bcast_S625000_S625000x128_0 (Host.reduce IntOp.andi
    (andi (cmpi .sge (broadcastInDim S625000x1 ![0] bcast_S625000_S625000x1_0
    (select (cmpi .slt idx (broadcastInDim S625000 ![] bcast_S_S625000 (constantI S_ 32 0#32)))
      (addi idx (broadcastInDim S625000 ![] bcast_S_S625000 (constantI S_ 32 50000#32))) idx)) (broadcastInDim S625000x1 ![] bcast_S_S625000x1 (constantI S_ 32 0#32)))
      (cmpi .sle (broadcastInDim S625000x1 ![0] bcast_S625000_S625000x1_0
    (select (cmpi .slt idx (broadcastInDim S625000 ![] bcast_S_S625000 (constantI S_ 32 0#32)))
      (addi idx (broadcastInDim S625000 ![] bcast_S_S625000 (constantI S_ 32 50000#32))) idx)) (broadcastInDim S625000x1 ![0, 1] bcast_S1x1_S625000x1_0_1
        (broadcastInDim S1x1 ![1] bcast_S1_S1x1_1 (constantI S1 32 49999#32)))))
    (constantI S_ 1 1#1) reducesTo_S625000x1_S625000_d1 h_S_))
    (Host.gather gather_S50000x128_S625000x1_S625000x128_1_0_n_n_0_1_1128 h (broadcastInDim S625000x1 ![0] bcast_S625000_S625000x1_0
    (select (cmpi .slt idx (broadcastInDim S625000 ![] bcast_S_S625000 (constantI S_ 32 0#32)))
      (addi idx (broadcastInDim S625000 ![] bcast_S_S625000 (constantI S_ 32 50000#32))) idx)))
    (broadcastInDim S625000x128 ![] bcast_S_S625000x128 (constant (F := Ideal) S_ .f32 0x7FC00000#32)) := rfl

set_option maxHeartbeats 4000000 in
theorem mid_v5_typed : mid W (Proc.devRef .tc main_v5)
    = (StableHlo.TRef.of main_v5 : StableHlo.TRef sig ⟨S625000x128, .f32⟩).toBuf
        (takeFill ((StableHlo.TRef.of main_v4 : StableHlo.TRef sig ⟨S50000x128, .f32⟩).ofBuf (W (Proc.devRef .tc main_v4)))
          ((StableHlo.TRef.of main_v1 : StableHlo.TRef sig ⟨S625000, .i32⟩).ofBuf (W (Proc.devRef .tc main_v1)))) := by
  rw [takeFill_eq]
  after_results_simp
  simp only [ofBuf_toBuf]

theorem mid_v5 : mid W (Proc.devRef .tc main_v5) = takeFill (W (Proc.devRef .tc main_v4)) (W (Proc.devRef .tc main_v1)) := by
  rw [mid_v5_typed, toBuf_v5, ofBuf_v4, ofBuf_v1]
theorem mid_v6 : mid W (Proc.devRef .tc main_v6) = shapeCast S625000x1 (W (Proc.devRef .tc main_arg2)) shapeCasts_S625000_S625000x1 := by
  after_results <;> rfl
theorem mid_v7 : mid W (Proc.devRef .tc main_v7) = shapeCast S1x128 (W (Proc.devRef .tc main_arg6)) shapeCasts_S128_S1x128 := by
  after_results <;> rfl
theorem mid_v8 : mid W (Proc.devRef .tc main_v8) = shapeCast S1x128 (W (Proc.devRef .tc main_arg8)) shapeCasts_S128_S1x128 := by
  after_results <;> rfl

/-- The host operations between the second and the third pallas_call, from contents `W`. -/
abbrev post : Valuation τ sig (Elt Ideal) := StableHlo.after hostOps2 W

theorem post_arg0 : post W (Proc.devRef .tc main_arg0) = W (Proc.devRef .tc main_arg0) := by after_results
theorem post_arg9 : post W (Proc.devRef .tc main_arg9) = W (Proc.devRef .tc main_arg9) := by after_results
theorem post_arg11 : post W (Proc.devRef .tc main_arg11) = W (Proc.devRef .tc main_arg11) := by after_results
theorem post_v9 : post W (Proc.devRef .tc main_v9) = W (Proc.devRef .tc main_v9) := by after_results
theorem post_v12 : post W (Proc.devRef .tc main_v12) = aggregate (W (Proc.devRef .tc main_v3)) (W (Proc.devRef .tc main_v9)) := by
  after_results <;> rfl
theorem post_v13 : post W (Proc.devRef .tc main_v13) = shapeCast S1x128 (W (Proc.devRef .tc main_arg10)) shapeCasts_S128_S1x128 := by
  after_results <;> rfl
theorem post_v14 : post W (Proc.devRef .tc main_v14) = shapeCast S1x128 (W (Proc.devRef .tc main_arg12)) shapeCasts_S128_S1x128 := by
  after_results <;> rfl

end Stretches2

/-! ## A row or a column cast from a vector reads back as the vector -/

theorem colVec_shapeCast (x : FVec Ideal S625000 .f32) : Ops.colVec (shapeCast S625000x1 x shapeCasts_S625000_S625000x1) = x := by
  funext i
  obtain ⟨e, rfl⟩ : ∃ e : Fin 625000, i = ix1 e := ⟨i 0, eq_ix1 i⟩
  exact shapeCast_a_a1_apply x shapeCasts_S625000_S625000x1 e 0

theorem rowVec_shapeCast (x : FVec Ideal S128 .f32) : Ops.rowVec (shapeCast S1x128 x shapeCasts_S128_S1x128) = x := by
  funext i
  obtain ⟨k, rfl⟩ : ∃ k : Fin 128, i = ix1 k := ⟨i 0, eq_ix1 i⟩
  exact shapeCast_a_1a_apply x shapeCasts_S128_S1x128 0 k

/-! ## The arrays each pallas_call finds, and what it leaves -/

section Chain
variable (c : Dev nD)

/-- An argument the first pallas_call does not touch still holds its launch contents after it. -/
theorem at2_arg1 : W2 m ρ c (Proc.devRef .tc main_arg1) = (m ((c : Thread nD τ).loc main_arg1)) := (W2_of_ne m ρ c main_arg1 (by decide)).trans (pre_arg1 (W0 m ρ c))
theorem at2_arg2 : W2 m ρ c (Proc.devRef .tc main_arg2) = (m ((c : Thread nD τ).loc main_arg2)) := (W2_of_ne m ρ c main_arg2 (by decide)).trans (pre_arg2 (W0 m ρ c))
theorem at2_arg5 : W2 m ρ c (Proc.devRef .tc main_arg5) = (m ((c : Thread nD τ).loc main_arg5)) := (W2_of_ne m ρ c main_arg5 (by decide)).trans (pre_arg5 (W0 m ρ c))
theorem at2_arg6 : W2 m ρ c (Proc.devRef .tc main_arg6) = (m ((c : Thread nD τ).loc main_arg6)) := (W2_of_ne m ρ c main_arg6 (by decide)).trans (pre_arg6 (W0 m ρ c))
theorem at2_arg7 : W2 m ρ c (Proc.devRef .tc main_arg7) = (m ((c : Thread nD τ).loc main_arg7)) := (W2_of_ne m ρ c main_arg7 (by decide)).trans (pre_arg7 (W0 m ρ c))
theorem at2_arg8 : W2 m ρ c (Proc.devRef .tc main_arg8) = (m ((c : Thread nD τ).loc main_arg8)) := (W2_of_ne m ρ c main_arg8 (by decide)).trans (pre_arg8 (W0 m ρ c))
theorem at2_arg9 : W2 m ρ c (Proc.devRef .tc main_arg9) = (m ((c : Thread nD τ).loc main_arg9)) := (W2_of_ne m ρ c main_arg9 (by decide)).trans (pre_arg9 (W0 m ρ c))
theorem at2_arg10 : W2 m ρ c (Proc.devRef .tc main_arg10) = (m ((c : Thread nD τ).loc main_arg10)) := (W2_of_ne m ρ c main_arg10 (by decide)).trans (pre_arg10 (W0 m ρ c))
theorem at2_arg11 : W2 m ρ c (Proc.devRef .tc main_arg11) = (m ((c : Thread nD τ).loc main_arg11)) := (W2_of_ne m ρ c main_arg11 (by decide)).trans (pre_arg11 (W0 m ρ c))
theorem at2_arg12 : W2 m ρ c (Proc.devRef .tc main_arg12) = (m ((c : Thread nD τ).loc main_arg12)) := (W2_of_ne m ρ c main_arg12 (by decide)).trans (pre_arg12 (W0 m ρ c))
theorem at2_v1 : W2 m ρ c (Proc.devRef .tc main_v1) = srcIdx (m ((c : Thread nD τ).loc main_arg3)) := (W2_of_ne m ρ c main_v1 (by decide)).trans (pre_v1 (W0 m ρ c))
theorem at2_v3 : W2 m ρ c (Proc.devRef .tc main_v3) = dstIdx (m ((c : Thread nD τ).loc main_arg3)) := (W2_of_ne m ρ c main_v3 (by decide)).trans (pre_v3 (W0 m ρ c))
/-- The node table is a window of the first pallas_call, which only reads it. -/
theorem at2_arg0 : W2 m ρ c (Proc.devRef .tc main_arg0) = (m ((c : Thread nD τ).loc main_arg0)) :=
  (W2_arr m ρ c 0).trans ((((dat0 (V1 m ρ) c).arrAt_in 0 rfl _).trans (A_eq0 (V1 m ρ) c 0)).trans (pre_arg0 (W0 m ρ c)))

/-- The first pallas_call finds the node table and the projection weight as launched … -/
theorem in0_nodes : V1 m ρ c main_arg0 = (m ((c : Thread nD τ).loc main_arg0)) := pre_arg0 (W0 m ρ c)
theorem in0_weight : V1 m ρ c main_arg4 = (m ((c : Thread nD τ).loc main_arg4)) := pre_arg4 (W0 m ρ c)

/-- … and leaves the projected rows h = X · W. -/
theorem proj_out : W2 m ρ c (Proc.devRef .tc main_v4) = Schnet.proj (m ((c : Thread nD τ).loc main_arg0)) (m ((c : Thread nD τ).loc main_arg4)) := by
  rw [show W2 m ρ c (Proc.devRef .tc main_v4) = _ from W2_arr m ρ c 2, Region0.final (V1 m ρ) c, in0_nodes, in0_weight]

/-- The second pallas_call finds the gathered rows, the radial features, the lengths as a column, the filter's weights and
    its biases as rows … -/
theorem in1_src : V4 m ρ c main_v5 = takeFill (Schnet.proj (m ((c : Thread nD τ).loc main_arg0)) (m ((c : Thread nD τ).loc main_arg4))) (srcIdx (m ((c : Thread nD τ).loc main_arg3))) :=
  (mid_v5 (W2 m ρ c)).trans (congrArg₂ takeFill (proj_out m ρ c) (at2_v1 m ρ c))
theorem in1_feat : V4 m ρ c main_arg1 = (m ((c : Thread nD τ).loc main_arg1)) := (mid_arg1 (W2 m ρ c)).trans (at2_arg1 m ρ c)
theorem in1_w1 : V4 m ρ c main_arg5 = (m ((c : Thread nD τ).loc main_arg5)) := (mid_arg5 (W2 m ρ c)).trans (at2_arg5 m ρ c)
theorem in1_w2 : V4 m ρ c main_arg7 = (m ((c : Thread nD τ).loc main_arg7)) := (mid_arg7 (W2 m ρ c)).trans (at2_arg7 m ρ c)
theorem in1_len : Ops.colVec (V4 m ρ c main_v6) = (m ((c : Thread nD τ).loc main_arg2)) := by
  rw [show V4 m ρ c main_v6 = _ from mid_v6 (W2 m ρ c), at2_arg2, colVec_shapeCast]
theorem in1_b1 : Ops.rowVec (V4 m ρ c main_v7) = (m ((c : Thread nD τ).loc main_arg6)) := by
  rw [show V4 m ρ c main_v7 = _ from mid_v7 (W2 m ρ c), at2_arg6, rowVec_shapeCast]
theorem in1_b2 : Ops.rowVec (V4 m ρ c main_v8) = (m ((c : Thread nD τ).loc main_arg8)) := by
  rw [show V4 m ρ c main_v8 = _ from mid_v8 (W2 m ρ c), at2_arg8, rowVec_shapeCast]

/-- … and leaves the messages. -/
theorem edge_out : W5 m ρ c (Proc.devRef .tc main_v9) = (Schnet.edge (takeFill (Schnet.proj (m ((c : Thread nD τ).loc main_arg0)) (m ((c : Thread nD τ).loc main_arg4))) (srcIdx (m ((c : Thread nD τ).loc main_arg3))))
      (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) := by
  rw [show W5 m ρ c (Proc.devRef .tc main_v9) = _ from W5_arr m ρ c 7, Region1.final (V4 m ρ) c,
    in1_src, in1_feat, in1_len, in1_w1, in1_b1, in1_w2, in1_b2]

/-- What the second pallas_call does not touch passes through it. -/
theorem at5_of_at4 (b : Ref sig .tc) (hb : ∀ w, Pipeline.arrRef spec1 w ≠ b) :
    W5 m ρ c (Proc.devRef .tc b) = mid (W2 m ρ c) (Proc.devRef .tc b) := W5_of_ne m ρ c b hb

/-- The third pallas_call finds the summed messages, the node table, the update network's weights and its biases as
    rows … -/
theorem in2_nodes : V6 m ρ c main_arg0 = (m ((c : Thread nD τ).loc main_arg0)) :=
  (post_arg0 (W5 m ρ c)).trans ((at5_of_at4 m ρ c main_arg0 (by decide)).trans ((mid_arg0 (W2 m ρ c)).trans (at2_arg0 m ρ c)))
theorem in2_agg : V6 m ρ c main_v12 = aggregate (dstIdx (m ((c : Thread nD τ).loc main_arg3))) (Schnet.edge (takeFill (Schnet.proj (m ((c : Thread nD τ).loc main_arg0)) (m ((c : Thread nD τ).loc main_arg4))) (srcIdx (m ((c : Thread nD τ).loc main_arg3))))
      (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) :=
  (post_v12 (W5 m ρ c)).trans (congrArg₂ aggregate
    ((at5_of_at4 m ρ c main_v3 (by decide)).trans ((mid_v3 (W2 m ρ c)).trans (at2_v3 m ρ c))) (edge_out m ρ c))
theorem in2_w1 : V6 m ρ c main_arg9 = (m ((c : Thread nD τ).loc main_arg9)) :=
  (post_arg9 (W5 m ρ c)).trans ((at5_of_at4 m ρ c main_arg9 (by decide)).trans ((mid_arg9 (W2 m ρ c)).trans (at2_arg9 m ρ c)))
theorem in2_w2 : V6 m ρ c main_arg11 = (m ((c : Thread nD τ).loc main_arg11)) :=
  (post_arg11 (W5 m ρ c)).trans ((at5_of_at4 m ρ c main_arg11 (by decide)).trans ((mid_arg11 (W2 m ρ c)).trans (at2_arg11 m ρ c)))
theorem in2_b1 : Ops.rowVec (V6 m ρ c main_v13) = (m ((c : Thread nD τ).loc main_arg10)) := by
  rw [show V6 m ρ c main_v13 = _ from post_v13 (W5 m ρ c), at5_of_at4 m ρ c main_arg10 (by decide), mid_arg10, at2_arg10, rowVec_shapeCast]
theorem in2_b2 : Ops.rowVec (V6 m ρ c main_v14) = (m ((c : Thread nD τ).loc main_arg12)) := by
  rw [show V6 m ρ c main_v14 = _ from post_v14 (W5 m ρ c), at5_of_at4 m ρ c main_arg12 (by decide), mid_arg12, at2_arg12, rowVec_shapeCast]

/-- … and leaves the new node table: the program's first result. -/
theorem node_result : W7 m ρ c (Proc.devRef .tc main_v15)
    = Schnet.node (m ((c : Thread nD τ).loc main_arg0)) (aggregate (dstIdx (m ((c : Thread nD τ).loc main_arg3))) (Schnet.edge (takeFill (Schnet.proj (m ((c : Thread nD τ).loc main_arg0)) (m ((c : Thread nD τ).loc main_arg4))) (srcIdx (m ((c : Thread nD τ).loc main_arg3))))
      (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))))
        (m ((c : Thread nD τ).loc main_arg9)) (m ((c : Thread nD τ).loc main_arg10)) (m ((c : Thread nD τ).loc main_arg11)) (m ((c : Thread nD τ).loc main_arg12)) := by
  rw [show W7 m ρ c (Proc.devRef .tc main_v15) = _ from W7_arr m ρ c 6, Region2.final (V6 m ρ) c,
    in2_nodes, in2_agg, in2_w1, in2_b1, in2_w2, in2_b2]

/-- The messages pass through the rest of the program: its second result. -/
theorem edge_result : W7 m ρ c (Proc.devRef .tc main_v9) = (Schnet.edge (takeFill (Schnet.proj (m ((c : Thread nD τ).loc main_arg0)) (m ((c : Thread nD τ).loc main_arg4))) (srcIdx (m ((c : Thread nD τ).loc main_arg3))))
      (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) :=
  (W7_of_ne m ρ c main_v9 (by decide)).trans ((post_v9 (W5 m ρ c)).trans (edge_out m ρ c))

end Chain

end Cert.KernelIdeal.Glue

end
-- ==== Proof.PreDecode.lean ====
/-
  The precondition, read back: besides the finiteness of the float inputs it says that every source-node index i of the
  edge list has -50000 ≤ i < 50000 — a valid index into the 50000 projected rows, counted from either end.
-/
import proofs.«412649_j3874060501586_1_alg».proof.Defs
import proofs.«412649_j3874060501586_1_alg».proof.Proof.Gen.Pre_finite_inputs
import proofs.«412649_j3874060501586_1_alg».proof.Proof.Take
import Idealize.ShloMosaic.Lib.ReduceAll

noncomputable section

namespace Cert.Proof.Pre

open Idealize.ShloMosaic Idealize.ShloMosaic.TcCoe Idealize.SL.Sem Idealize.ShloMosaic.ValueIdx

/-- Under the precondition the source index of every edge is in -50000 … 49999: the last conjunct of the printed predicate
    is a reduction by `and` over all edges of the two comparisons, and it came out 1. -/
theorem src_in_range [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 625000) :
    IntOp.cmpi .sge (Cert.KernelIdeal.Glue.srcIdx
        (m ((c.tc : Thread Cert.KernelIdeal.nD Cert.KernelIdeal.τ).loc Cert.KernelIdeal.main_arg3)) (ix1 e)) 4294917296#32 = 1#1
    ∧ IntOp.cmpi .slt (Cert.KernelIdeal.Glue.srcIdx
        (m ((c.tc : Thread Cert.KernelIdeal.nD Cert.KernelIdeal.τ).loc Cert.KernelIdeal.main_arg3)) (ix1 e)) 50000#32 = 1#1 := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at h
  have h68 := (IntOp.andi_eq_one.1 h).2
  haveI : Subsingleton Cert.Pre_finite_inputs.S_.Idx := ⟨fun a b => funext fun d => d.elim0⟩
  have hall := Host.reduce_andi_all _ _ _ _ ix0 h68 (ix1 e)
  exact IntOp.andi_eq_one.1 hall

end Cert.Proof.Pre

end
-- ==== Proof.RefValue.lean ====
/-
  The reference, stage by stage, is the specification: its node projection is X · W, its filter network and cosine
  cutoff are the entry-by-entry formulas, its messages are the gathered rows times the damped filter, and its new node
  table is the old one plus the update network of the summed messages.  The gather and the scatter-add stay as the
  reference states them.
-/
import proofs.«412649_j3874060501586_1_alg».proof.Proof.Gen.ReferenceIdeal.Read
import proofs.«412649_j3874060501586_1_alg».proof.Proof.Spec

set_option maxRecDepth 16384
set_option Elab.async false

noncomputable section

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.ValueIdx

-- the gathered rows and the summed messages stay folded: nothing below looks inside them
attribute [local irreducible] Cert.ReferenceIdeal.Read.val_main_v40 Cert.ReferenceIdeal.Read.val_main_v36

variable (x0 : (⟨S50000x128, .f32⟩ : BufTy).Contents (Elt Ideal)) (x1 : (⟨S625000x50, .f32⟩ : BufTy).Contents (Elt Ideal))
  (x2 : (⟨S625000, .f32⟩ : BufTy).Contents (Elt Ideal)) (x3 : (⟨S2x625000, .i32⟩ : BufTy).Contents (Elt Ideal))
  (x4 : (⟨S128x128, .f32⟩ : BufTy).Contents (Elt Ideal)) (x5 : (⟨S50x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x128, .f32⟩ : BufTy).Contents (Elt Ideal))
  (x12 : (⟨S128, .f32⟩ : BufTy).Contents (Elt Ideal))

/-- The reference's node projection is h = X · W. -/
theorem ref_proj : val_main_v4 (F := Ideal) x0 x4 = Schnet.proj x0 x4 := by
  funext i
  obtain ⟨n, f, rfl⟩ : ∃ (n : Fin 50000) (f : Fin 128), i = ix2 n f := ⟨i 0, i 1, eq_ix2 i⟩
  rw [val_main_v4_apply, Schnet.proj_ix2]
  unfold Schnet.projAt
  refine Finset.sum_congr rfl fun k _ => ?_
  have hl : lidx_main_v4 (ix2 n f) k = ix2 n k := funext fun a => Fin.ext (by match a with | ⟨0, _⟩ => rfl | ⟨1, _⟩ => rfl)
  have hr : ridx_main_v4 (ix2 n f) k = ix2 k f := funext fun a => Fin.ext (by match a with | ⟨0, _⟩ => rfl | ⟨1, _⟩ => rfl)
  rw [hl, hr]

/-! ## The filter network -/

/-- The first layer before its activation: the edge's radial features against a column of W₁, plus the bias. -/
theorem ref_pre1 (e : Fin 625000) (k : Fin 128) :
    val_main_v19 (F := Ideal) x1 x5 x6 (ix2 e k) = (∑ g : Fin 50, x1 (ix2 e g) * x5 (ix2 g k)) + x6 (ix1 k) := by
  show val_main_v16 (F := Ideal) x1 x5 (ix2 e k) + val_main_v18 (F := Ideal) x6 (ix2 e k) = _
  rw [val_main_v16_apply, val_main_v18_apply, val_main_v17_apply]
  refine congrArg₂ (· + ·) (Finset.sum_congr rfl fun g _ => ?_) (congrArg x6 ?_)
  · have hl : lidx_main_v16 (ix2 e k) g = ix2 e g := funext fun a => Fin.ext (by match a with | ⟨0, _⟩ => rfl | ⟨1, _⟩ => rfl)
    have hr : ridx_main_v16 (ix2 e k) g = ix2 g k := funext fun a => Fin.ext (by match a with | ⟨0, _⟩ => rfl | ⟨1, _⟩ => rfl)
    rw [hl, hr]
  · exact funext fun a => Fin.ext (by match a with | ⟨0, _⟩ => rfl)

/-- The shifted softplus of the first layer, as the reference's outlined softplus spells it. -/
theorem ref_hid1 (j : S625000x128.Idx) :
    val_main_v22 (F := Ideal) x1 x5 x6 j = Schnet.ssp (val_main_v19 (F := Ideal) x1 x5 x6 j) := by
  have e0 : val_main_call0_v0 (F := Ideal) j = Schnet.c0 := val_main_call0_v0_apply j
  have e2 : val_main_call0_v2 (F := Ideal) j = Schnet.c0 := val_main_call0_v2_apply j
  have e5 : val_main_call0_v5 (F := Ideal) j = Schnet.c0 := val_main_call0_v5_apply j
  have e21 : val_main_v21 (F := Ideal) j = Schnet.cLn2 := val_main_v21_apply j
  show Scalar.select (Ideal.cmp .une (val_main_v19 (F := Ideal) x1 x5 x6 j - val_main_call0_v2 (F := Ideal) j)
        (val_main_v19 (F := Ideal) x1 x5 x6 j - val_main_call0_v2 (F := Ideal) j))
      (val_main_v19 (F := Ideal) x1 x5 x6 j + val_main_call0_v5 (F := Ideal) j)
      (max (val_main_v19 (F := Ideal) x1 x5 x6 j) (val_main_call0_v0 (F := Ideal) j)
        + Ideal.log1p (Ideal.exp (-(max (val_main_v19 (F := Ideal) x1 x5 x6 j - val_main_call0_v2 (F := Ideal) j)
            (-(val_main_v19 (F := Ideal) x1 x5 x6 j - val_main_call0_v2 (F := Ideal) j))))))
      - val_main_v21 (F := Ideal) j = _
  rw [e0, e2, e5, e21, Schnet.cmp_une_self, select_zero]
  rfl

/-- The filter of edge e at feature f. -/
theorem ref_filt (e : Fin 625000) (f : Fin 128) :
    val_main_v26 (F := Ideal) x1 x5 x6 x7 x8 (ix2 e f) = Schnet.filtAt x1 x5 x6 x7 x8 e f := by
  show val_main_v23 (F := Ideal) x1 x5 x6 x7 (ix2 e f) + val_main_v25 (F := Ideal) x8 (ix2 e f) = _
  rw [val_main_v23_apply, val_main_v25_apply, val_main_v24_apply]
  unfold Schnet.filtAt Schnet.edgeHidAt
  refine congrArg₂ (· + ·) (Finset.sum_congr rfl fun k _ => ?_) (congrArg x8 ?_)
  · have hl : lidx_main_v23 (ix2 e f) k = ix2 e k := funext fun a => Fin.ext (by match a with | ⟨0, _⟩ => rfl | ⟨1, _⟩ => rfl)
    have hr : ridx_main_v23 (ix2 e f) k = ix2 k f := funext fun a => Fin.ext (by match a with | ⟨0, _⟩ => rfl | ⟨1, _⟩ => rfl)
    rw [hl, hr, ref_hid1, ref_pre1]
  · exact funext fun a => Fin.ext (by match a with | ⟨0, _⟩ => rfl)

/-- The cosine cutoff of edge e. -/
theorem ref_cut (e : Fin 625000) : val_main_v15 (F := Ideal) x2 (ix1 e) = Schnet.cutAt x2 e := by
  have e5 : val_main_v5 (F := Ideal) (ix1 e) = Schnet.c2pi := val_main_v5_apply _
  have e8 : val_main_v8 (F := Ideal) (ix1 e) = Schnet.c1 := val_main_v8_apply _
  have e10 : val_main_v10 (F := Ideal) (ix1 e) = Schnet.cHalf := val_main_v10_apply _
  have e12 : val_main_v12 (F := Ideal) (ix1 e) = Schnet.cHalf := val_main_v12_apply _
  show (val_main_v10 (F := Ideal) (ix1 e) * (Ideal.cos (x2 (ix1 e) * val_main_v5 (F := Ideal) (ix1 e)) + val_main_v8 (F := Ideal) (ix1 e)))
      * (((Ideal.cmp .olt (x2 (ix1 e)) (val_main_v12 (F := Ideal) (ix1 e))).toNat : ℝ) : EReal) = _
  rw [e5, e8, e10, e12]
  rfl

/-- The reference's messages: its gathered rows times the damped filter. -/
theorem ref_edge : val_main_v37 (F := Ideal) x0 x1 x2 x3 x4 x5 x6 x7 x8 = Schnet.edge (val_main_v36 (F := Ideal) x0 x3 x4) x1 x2 x5 x6 x7 x8 := by
  funext i
  obtain ⟨e, f, rfl⟩ : ∃ (e : Fin 625000) (f : Fin 128), i = ix2 e f := ⟨i 0, i 1, eq_ix2 i⟩
  rw [Schnet.edge_ix2]
  unfold Schnet.edgeAt
  show val_main_v36 (F := Ideal) x0 x3 x4 (ix2 e f)
      * (val_main_v26 (F := Ideal) x1 x5 x6 x7 x8 (ix2 e f) * val_main_v28 (F := Ideal) x2 (ix2 e f)) = _
  rw [ref_filt, val_main_v28_apply, val_main_v27_apply]
  have hi : idx_main_v27 (idx_main_v28 (ix2 e f)) = ix1 e := funext fun a => Fin.ext (by match a with | ⟨0, _⟩ => rfl)
  rw [hi, ref_cut]

/-! ## The update network, over any table `A` of summed messages -/

section Update
variable (A : (⟨S50000x128, .f32⟩ : BufTy).Contents (Elt Ideal))

/-- The first layer before its activation, the reference's operations applied to `A`. -/
def updPre : FVec Ideal S50000x128 .f32 :=
  addf (F := Ideal) (val_main_v4 (F := Ideal) A x9) (val_main_v43 (F := Ideal) x10)

/-- The shifted softplus of it, as the reference's second outlined softplus spells it. -/
def updHid : FVec Ideal S50000x128 .f32 :=
  subf (F := Ideal) (select (cmpf (F := Ideal) .une (subf (F := Ideal) (updPre x9 x10 A) (val_main_call1_v2 (F := Ideal))) (subf (F := Ideal) (updPre x9 x10 A) (val_main_call1_v2 (F := Ideal))))
      (addf (F := Ideal) (updPre x9 x10 A) (val_main_call1_v5 (F := Ideal)))
      (addf (F := Ideal) (maximumf (F := Ideal) (updPre x9 x10 A) (val_main_call1_v0 (F := Ideal)))
        (Host.log1p (F := Ideal) (Host.exp (F := Ideal) (Host.negf (F := Ideal) (Host.absf (F := Ideal) (subf (F := Ideal) (updPre x9 x10 A) (val_main_call1_v2 (F := Ideal)))))))))
    (val_main_v46 (F := Ideal))

/-- The new rows. -/
def updOut : FVec Ideal S50000x128 .f32 :=
  addf (F := Ideal) x0 (addf (F := Ideal) (val_main_v4 (F := Ideal) (updHid x9 x10 A) x11) (val_main_v50 (F := Ideal) x12))

theorem updPre_apply (n : Fin 50000) (k : Fin 128) :
    updPre x9 x10 A (ix2 n k) = (∑ j : Fin 128, A (ix2 n j) * x9 (ix2 j k)) + x10 (ix1 k) := by
  show val_main_v4 (F := Ideal) A x9 (ix2 n k) + val_main_v43 (F := Ideal) x10 (ix2 n k) = _
  rw [ref_proj, Schnet.proj_ix2, val_main_v43_apply, val_main_v42_apply]
  unfold Schnet.projAt
  refine congrArg ((∑ j : Fin 128, A (ix2 n j) * x9 (ix2 j k)) + ·) (congrArg x10 ?_)
  exact funext fun a => Fin.ext (by match a with | ⟨0, _⟩ => rfl)

theorem updHid_apply (j : S50000x128.Idx) : updHid x9 x10 A j = Schnet.ssp (updPre x9 x10 A j) := by
  have e0 : val_main_call1_v0 (F := Ideal) j = Schnet.c0 := val_main_call1_v0_apply j
  have e2 : val_main_call1_v2 (F := Ideal) j = Schnet.c0 := val_main_call1_v2_apply j
  have e5 : val_main_call1_v5 (F := Ideal) j = Schnet.c0 := val_main_call1_v5_apply j
  have e46 : val_main_v46 (F := Ideal) j = Schnet.cLn2 := val_main_v46_apply j
  show Scalar.select (Ideal.cmp .une (updPre x9 x10 A j - val_main_call1_v2 (F := Ideal) j)
        (updPre x9 x10 A j - val_main_call1_v2 (F := Ideal) j))
      (updPre x9 x10 A j + val_main_call1_v5 (F := Ideal) j)
      (max (updPre x9 x10 A j) (val_main_call1_v0 (F := Ideal) j)
        + Ideal.log1p (Ideal.exp (-(max (updPre x9 x10 A j - val_main_call1_v2 (F := Ideal) j)
            (-(updPre x9 x10 A j - val_main_call1_v2 (F := Ideal) j))))))
      - val_main_v46 (F := Ideal) j = _
  rw [e0, e2, e5, e46, Schnet.cmp_une_self, select_zero]
  rfl

/-- Over any summed messages the reference's update is the specification's. -/
theorem updOut_eq : updOut x0 x9 x10 x11 x12 A = Schnet.node x0 A x9 x10 x11 x12 := by
  funext i
  obtain ⟨n, f, rfl⟩ : ∃ (n : Fin 50000) (f : Fin 128), i = ix2 n f := ⟨i 0, i 1, eq_ix2 i⟩
  rw [Schnet.node_ix2]
  unfold Schnet.nodeAt Schnet.nodeHidAt
  show x0 (ix2 n f) + (val_main_v4 (F := Ideal) (updHid x9 x10 A) x11 (ix2 n f) + val_main_v50 (F := Ideal) x12 (ix2 n f)) = _
  rw [ref_proj, Schnet.proj_ix2, val_main_v50_apply, val_main_v49_apply]
  unfold Schnet.projAt
  refine congrArg (x0 (ix2 n f) + ·) (congrArg₂ (· + ·) (Finset.sum_congr rfl fun k _ => ?_) (congrArg x12 ?_))
  · rw [updHid_apply, updPre_apply]
  · exact funext fun a => Fin.ext (by match a with | ⟨0, _⟩ => rfl)

end Update

/-- The reference's new node table is that update of its own summed messages: the stages, unfolded. -/
theorem v52_eq_updOut : val_main_v52 (F := Ideal) x0 x1 x2 x3 x4 x5 x6 x7 x8 x9 x10 x11 x12
    = updOut x0 x9 x10 x11 x12 (val_main_v40 (F := Ideal) x0 x1 x2 x3 x4 x5 x6 x7 x8) := rfl

/-- The reference's new node table: the old rows plus the update network of its summed messages. -/
theorem ref_node : val_main_v52 (F := Ideal) x0 x1 x2 x3 x4 x5 x6 x7 x8 x9 x10 x11 x12
    = Schnet.node x0 (val_main_v40 (F := Ideal) x0 x1 x2 x3 x4 x5 x6 x7 x8) x9 x10 x11 x12 :=
  (v52_eq_updOut x0 x1 x2 x3 x4 x5 x6 x7 x8 x9 x10 x11 x12).trans (updOut_eq x0 x9 x10 x11 x12 _)

end Cert.ReferenceIdeal.RefValue

end
-- ==== Proof.Bridge.lean ====
/-
  The two programs use the same gather and the same accumulating scatter: the reference's wrapped source column, target
  column, zero table and dimension records are the kernel program's, spelt in the other program's vocabulary.  So the
  reference's messages and new node table are the specification's formulas over the kernel program's gather and sum.
-/
import proofs.«412649_j3874060501586_1_alg».proof.Proof.RefValue
import proofs.«412649_j3874060501586_1_alg».proof.Proof.Take

noncomputable section

namespace Cert.Proof.Bridge

open Idealize.ShloMosaic Idealize.ShloMosaic.TcCoe Idealize.SL.Sem Idealize.ShloMosaic.ValueIdx
open Cert.ReferenceIdeal.Read Cert.KernelIdeal.Glue

theorem gatherDims_eq : Cert.ReferenceIdeal.gather_S50000x128_S625000x1_S625000x128_1_0_n_n_0_1_1128 = Cert.KernelIdeal.gather_S50000x128_S625000x1_S625000x128_1_0_n_n_0_1_1128 := rfl
theorem scatterDims_eq : Cert.ReferenceIdeal.scatter_S50000x128_S625000x1_S625000x128_1_0_0_1 = Cert.KernelIdeal.scatter_S50000x128_S625000x1_S625000x128_1_0_0_1 := rfl

variable (x0 : (⟨Cert.ReferenceIdeal.S50000x128, .f32⟩ : BufTy).Contents (Elt Ideal)) (x1 : (⟨Cert.ReferenceIdeal.S625000x50, .f32⟩ : BufTy).Contents (Elt Ideal))
  (x2 : (⟨Cert.ReferenceIdeal.S625000, .f32⟩ : BufTy).Contents (Elt Ideal)) (x3 : (⟨Cert.ReferenceIdeal.S2x625000, .i32⟩ : BufTy).Contents (Elt Ideal))
  (x4 : (⟨Cert.ReferenceIdeal.S128x128, .f32⟩ : BufTy).Contents (Elt Ideal)) (x5 : (⟨Cert.ReferenceIdeal.S50x128, .f32⟩ : BufTy).Contents (Elt Ideal))
  (x6 : (⟨Cert.ReferenceIdeal.S128, .f32⟩ : BufTy).Contents (Elt Ideal)) (x7 : (⟨Cert.ReferenceIdeal.S128x128, .f32⟩ : BufTy).Contents (Elt Ideal))
  (x8 : (⟨Cert.ReferenceIdeal.S128, .f32⟩ : BufTy).Contents (Elt Ideal)) (x9 : (⟨Cert.ReferenceIdeal.S128x128, .f32⟩ : BufTy).Contents (Elt Ideal))
  (x10 : (⟨Cert.ReferenceIdeal.S128, .f32⟩ : BufTy).Contents (Elt Ideal)) (x11 : (⟨Cert.ReferenceIdeal.S128x128, .f32⟩ : BufTy).Contents (Elt Ideal))
  (x12 : (⟨Cert.ReferenceIdeal.S128, .f32⟩ : BufTy).Contents (Elt Ideal))

/-- The reference's column of wrapped source indices is the kernel program's. -/
theorem srcCol_eq : val_main_v35 (F := Ideal) x3 = wrapCol (srcIdx x3) := rfl
/-- The reference's column of target indices. -/
theorem dstCol_eq : val_main_v39 (F := Ideal) x3
    = broadcastInDim Cert.KernelIdeal.S625000x1 ![0] Cert.KernelIdeal.Gen.bcast_S625000_S625000x1_0 (dstIdx x3) := rfl
/-- The reference's zero table. -/
theorem zeros_eq : val_main_v38 (F := Ideal)
    = broadcastInDim Cert.KernelIdeal.S50000x128 ![] Cert.KernelIdeal.Gen.bcast_S_S50000x128 (constant (F := Ideal) Cert.KernelIdeal.S_ .f32 0x00000000#32) := rfl

/-- The reference's gathered rows. -/
theorem ref_gather : val_main_v36 (F := Ideal) x0 x3 x4
    = Host.gather Cert.KernelIdeal.gather_S50000x128_S625000x1_S625000x128_1_0_n_n_0_1_1128 (Schnet.proj x0 x4) (wrapCol (srcIdx x3)) := by
  unfold val_main_v36
  rw [Cert.ReferenceIdeal.RefValue.ref_proj, gatherDims_eq, srcCol_eq]

/-- The reference's messages over the kernel program's gather. -/
theorem ref_messages : val_main_v37 (F := Ideal) x0 x1 x2 x3 x4 x5 x6 x7 x8
    = Schnet.edge (Host.gather Cert.KernelIdeal.gather_S50000x128_S625000x1_S625000x128_1_0_n_n_0_1_1128 (Schnet.proj x0 x4) (wrapCol (srcIdx x3))) x1 x2 x5 x6 x7 x8 := by
  rw [Cert.ReferenceIdeal.RefValue.ref_edge, ref_gather]

/-- The reference's summed messages. -/
theorem ref_aggregate : val_main_v40 (F := Ideal) x0 x1 x2 x3 x4 x5 x6 x7 x8
    = aggregate (dstIdx x3)
        (Schnet.edge (Host.gather Cert.KernelIdeal.gather_S50000x128_S625000x1_S625000x128_1_0_n_n_0_1_1128 (Schnet.proj x0 x4) (wrapCol (srcIdx x3))) x1 x2 x5 x6 x7 x8) := by
  unfold val_main_v40 aggregate
  rw [ref_messages, scatterDims_eq, zeros_eq, dstCol_eq]

/-- The reference's new node table over the kernel program's gather and sum. -/
theorem ref_nodes : val_main_v52 (F := Ideal) x0 x1 x2 x3 x4 x5 x6 x7 x8 x9 x10 x11 x12
    = Schnet.node x0 (aggregate (dstIdx x3)
        (Schnet.edge (Host.gather Cert.KernelIdeal.gather_S50000x128_S625000x1_S625000x128_1_0_n_n_0_1_1128 (Schnet.proj x0 x4) (wrapCol (srcIdx x3))) x1 x2 x5 x6 x7 x8)) x9 x10 x11 x12 := by
  rw [Cert.ReferenceIdeal.RefValue.ref_node, ref_aggregate]

end Cert.Proof.Bridge

end
-- ==== Proof.lean ====
/-
  The claim.  Both programs compute one message-passing update: project the node rows (h = X · W), gather h at the source
  node of every edge, multiply by the edge's filter (a two-layer network of its radial features) damped by the cosine
  cutoff of its length, sum the messages into their target nodes, and add a two-layer network of the sums to the node rows.
  The kernel program does the three dense stages in pallas_calls over blocks of 5000 rows and the gather and the sum on the
  host; the reference does everything on the host.  Over the extended reals every operation of the one is the same
  operation of the other (a change of float format is the identity, a block product into a zero accumulator is the host's
  product, a sum may be taken in any order), so the two results agree entry by entry; no product is distributed over a
  sum, so the finiteness of the inputs is not used.

  One difference needs the precondition: the kernel program gathers with jnp.take, which fills an edge whose source index,
  after wrap-around, is outside 0 … 49999, while the reference's h[idx] gathers at the clamped index.  The precondition says
  every source index i has -50000 ≤ i < 50000; then no edge is filled and the two gathers are one.

  The three frames: the word-level and the idealized kernel programs by their generated frames; the reference by its
  generated run.  The idealization rewrote nothing, so `preserves` is trivial.
-/
import proofs.«412649_j3874060501586_1_alg».proof.Defs
import proofs.«412649_j3874060501586_1_alg».proof.Proof.Gen.Kernel
import proofs.«412649_j3874060501586_1_alg».proof.Proof.Gen.Kernel.Skeleton
import proofs.«412649_j3874060501586_1_alg».proof.Proof.Gen.Kernel.Launch
import proofs.«412649_j3874060501586_1_alg».proof.Proof.Gen.Kernel.Points
import proofs.«412649_j3874060501586_1_alg».proof.Proof.Gen.Kernel.Frame
import proofs.«412649_j3874060501586_1_alg».proof.Proof.Gen.KernelIdeal
import proofs.«412649_j3874060501586_1_alg».proof.Proof.Gen.KernelIdeal.Skeleton
import proofs.«412649_j3874060501586_1_alg».proof.Proof.Gen.KernelIdeal.Launch
import proofs.«412649_j3874060501586_1_alg».proof.Proof.Gen.KernelIdeal.Points
import proofs.«412649_j3874060501586_1_alg».proof.Proof.Gen.KernelIdeal.Frame
import proofs.«412649_j3874060501586_1_alg».proof.Proof.Gen.ReferenceIdeal
import proofs.«412649_j3874060501586_1_alg».proof.Proof.Gen.ReferenceIdeal.Run
import proofs.«412649_j3874060501586_1_alg».proof.Proof.Gen.ReferenceIdeal.Read
import proofs.«412649_j3874060501586_1_alg».proof.Proof.Gen.Pre_finite_inputs
import proofs.«412649_j3874060501586_1_alg».proof.Proof.RunResults
import proofs.«412649_j3874060501586_1_alg».proof.Proof.Glue
import proofs.«412649_j3874060501586_1_alg».proof.Proof.PreDecode
import proofs.«412649_j3874060501586_1_alg».proof.Proof.Bridge
import Idealize.ShloMosaic.Adequacy
import Idealize.ShloMosaic.Init

noncomputable section

namespace Cert.Proof

open Idealize.ShloMosaic Idealize.ShloMosaic.TcCoe Idealize.SL.Sem Cert.KernelIdeal.Glue

-- the gather and the accumulating sum stay folded: the assembly never looks inside them
attribute [local irreducible] Host.gather Host.scatterAdd

/-- The messages as a function of the kernel program's launch memory. -/
def messages (m : (ℓ : Loc Cert.KernelIdeal.nD Cert.KernelIdeal.τ Cert.KernelIdeal.sig) → Buf (Elt Ideal) ℓ) (c : Dev Cert.KernelIdeal.nD) :
    FVec Ideal Cert.KernelIdeal.S625000x128 .f32 :=
  Schnet.edge (Host.gather Cert.KernelIdeal.gather_S50000x128_S625000x1_S625000x128_1_0_n_n_0_1_1128 (Schnet.proj (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (wrapCol (srcIdx (m ((c.tc : Thread Cert.KernelIdeal.nD Cert.KernelIdeal.τ).loc Cert.KernelIdeal.main_arg3)))))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The new node table as a function of the kernel program's launch memory. -/
def newNodes (m : (ℓ : Loc Cert.KernelIdeal.nD Cert.KernelIdeal.τ Cert.KernelIdeal.sig) → Buf (Elt Ideal) ℓ) (c : Dev Cert.KernelIdeal.nD) :
    FVec Ideal Cert.KernelIdeal.S50000x128 .f32 :=
  Schnet.node (m ((c.tc : Thread Cert.KernelIdeal.nD Cert.KernelIdeal.τ).loc Cert.KernelIdeal.main_arg0)) (aggregate (dstIdx (m ((c.tc : Thread Cert.KernelIdeal.nD Cert.KernelIdeal.τ).loc Cert.KernelIdeal.main_arg3))) (messages m c))
    (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

/-- Under the precondition the kernel program's second result holds the messages … -/
theorem kernel_messages (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W7 m ρ c (Proc.devRef .tc Cert.KernelIdeal.main_v9) = messages m c := by
  unfold messages
  rw [edge_result, takeFill_eq_gather _ _ (Pre.src_in_range m hpre c)]

/-- … and its first the new node table. -/
theorem kernel_nodes (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W7 m ρ c (Proc.devRef .tc Cert.KernelIdeal.main_v15) = newNodes m c := by
  unfold newNodes messages
  rw [node_result, takeFill_eq_gather _ _ (Pre.src_in_range m hpre c)]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the messages and the new node table of the launch contents. -/
theorem algebraic : Cert.algebraic_KernelIdeal_ReferenceIdeal := by
  intro m ρ m' ρ' hpre hagree
  refine ⟨fun c => newNodes m c, fun c => messages m c, ?_, ?_⟩
  · refine (θ_run Cert.KernelIdeal.defs _ _).mono (fun r h c => ?_) (Cert.KernelIdeal.Gen.run_results (F := Ideal) m ρ)
    obtain ⟨h15, h9, hargs⟩ := h c
    exact ⟨h15.trans (kernel_nodes m ρ hpre c), h9.trans (kernel_messages m ρ hpre c), hargs⟩
  · refine (θ_run Cert.ReferenceIdeal.defs _ _).mono (fun r h c => ?_) (Cert.ReferenceIdeal.Value.run (F := Ideal) m' ρ')
    obtain ⟨h52, h37, hargs⟩ := h c
    obtain ⟨a0, a1, a2, a3, a4, a5, a6, a7, a8, a9, a10, a11, a12⟩ := hagree c
    refine ⟨?_, ?_, hargs⟩
    · refine ((h52.trans (Cert.ReferenceIdeal.Read.val_main_v52_eq m' c)).trans (Bridge.ref_nodes _ _ _ _ _ _ _ _ _ _ _ _ _)).trans ?_
      unfold newNodes messages
      rw [a0, a1, a2, a3, a4, a5, a6, a7, a8, a9, a10, a11, a12]
    · refine ((h37.trans (Cert.ReferenceIdeal.Read.val_main_v37_eq _ _ _ _ _ _ _ _ _)).trans (Bridge.ref_messages _ _ _ _ _ _ _ _ _)).trans ?_
      unfold messages
      rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
